-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S100x1024 : Shape := ⟨2, ![100, 1024]⟩
abbrev S128000x1024 : Shape := ⟨2, ![128000, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S128000 : Shape := ⟨1, ![128000]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S100x1024 : S_.BroadcastsInDim S100x1024 (![] : Fin 0 → Fin S100x1024.rank)
  reducesTo_S100x1024_S_d0_1 : S100x1024.ReducesTo [0, 1] S_
  bcast_S_S128000x1024 : S_.BroadcastsInDim S128000x1024 (![] : Fin 0 → Fin S128000x1024.rank)
  reducesTo_S128000x1024_S_d0_1 : S128000x1024.ReducesTo [0, 1] S_
  bcast_S_S100x2048 : S_.BroadcastsInDim S100x2048 (![] : Fin 0 → Fin S100x2048.rank)
  reducesTo_S100x2048_S_d0_1 : S100x2048.ReducesTo [0, 1] S_
  bcast_S_S100 : S_.BroadcastsInDim S100 (![] : Fin 0 → Fin S100.rank)
  reducesTo_S100_S_d0 : S100.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S128000 : S_.BroadcastsInDim S128000 (![] : Fin 0 → Fin S128000.rank)
  reducesTo_S128000_S_d0 : S128000.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v65 : IVec S1 1) (main_v67 : IVec S1 1) : IVec S_ 1 :=
  let main_v68 : IVec S1 1 := andi main_v65 main_v67
  let main_c_26 : IVec S_ 1 := constantI S_ 1 1#1
  let main_v69 : IVec S_ 1 := (fun x v => Host.reduce IntOp.andi x v reducesTo_S1_S_d0 h_S_) main_v68 main_c_26
  let main_v70 : IVec S_ 1 := andi main_v63 main_v69
  main_v70

def fn_part3 {F : FTy → Type} [FloatOps F] (main_arg0 : IVec S1 32) (main_arg12 : FVec F S128000x1024 .f32) (main_arg13 : FVec F S128000 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S128000x1024 .f32 := Host.absf main_arg12
  let main_cst_20 : FVec F S_ .f32 := constant S_ .f32 0x7F800000#32
  let main_v55 : FVec F S128000x1024 .f32 := broadcastInDim S128000x1024 ![] bcast_S_S128000x1024 main_cst_20
  let main_v56 : IVec S128000x1024 1 := cmpf .olt main_v54 main_v55
  let main_c_21 : IVec S_ 1 := constantI S_ 1 1#1
  let main_v57 : IVec S_ 1 := (fun x v => Host.reduce IntOp.andi x v reducesTo_S128000x1024_S_d0_1 h_S_) main_v56 main_c_21
  let main_v58 : IVec S_ 1 := andi main_v53 main_v57
  let main_v59 : FVec F S128000 .f32 := Host.absf main_arg13
  let main_cst_22 : FVec F S_ .f32 := constant S_ .f32 0x7F800000#32
  let main_v60 : FVec F S128000 .f32 := broadcastInDim S128000 ![] bcast_S_S128000 main_cst_22
  let main_v61 : IVec S128000 1 := cmpf .olt main_v59 main_v60
  let main_c_23 : IVec S_ 1 := constantI S_ 1 1#1
  let main_v62 : IVec S_ 1 := (fun x v => Host.reduce IntOp.andi x v reducesTo_S128000_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 32 := constantI S_ 32 128000#32
  let main_v66 : IVec S1 32 := broadcastInDim S1 ![] bcast_S_S1 main_c_25
  let main_v67 : IVec S1 1 := cmpi .slt main_arg0 main_v66
  fn_part4 (F := F) main_v63 main_v65 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S128000x1024 .f32) (main_arg13 : FVec F S128000 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S100 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S128000x1024 .f32) (main_arg13 : FVec F S128000 .f32) (main_v13 : IVec S_ 1) (main_v16 : IVec S100x2048 1) : IVec S_ 1 :=
  let main_c_5 : IVec S_ 1 := constantI S_ 1 1#1
  let main_v17 : IVec S_ 1 := (fun x v => Host.reduce IntOp.andi x v reducesTo_S100x2048_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S100x1024 .f32) (main_arg3 : FVec F S128000x1024 .f32) (main_arg4 : FVec F S100x2048 .f32) (main_arg5 : FVec F S100 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S128000x1024 .f32) (main_arg13 : FVec F S128000 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S100x1024 .f32 := Host.absf main_arg2
  let main_cst_0 : FVec F S_ .f32 := constant S_ .f32 0x7F800000#32
  let main_v5 : FVec F S100x1024 .f32 := broadcastInDim S100x1024 ![] bcast_S_S100x1024 main_cst_0
  let main_v6 : IVec S100x1024 1 := cmpf .olt main_v4 main_v5
  let main_c_1 : IVec S_ 1 := constantI S_ 1 1#1
  let main_v7 : IVec S_ 1 := (fun x v => Host.reduce IntOp.andi x v reducesTo_S100x1024_S_d0_1 h_S_) main_v6 main_c_1
  let main_v8 : IVec S_ 1 := andi main_v3 main_v7
  let main_v9 : FVec F S128000x1024 .f32 := Host.absf main_arg3
  let main_cst_2 : FVec F S_ .f32 := constant S_ .f32 0x7F800000#32
  let main_v10 : FVec F S128000x1024 .f32 := broadcastInDim S128000x1024 ![] bcast_S_S128000x1024 main_cst_2
  let main_v11 : IVec S128000x1024 1 := cmpf .olt main_v9 main_v10
  let main_c_3 : IVec S_ 1 := constantI S_ 1 1#1
  let main_v12 : IVec S_ 1 := (fun x v => Host.reduce IntOp.andi x v reducesTo_S128000x1024_S_d0_1 h_S_) main_v11 main_c_3
  let main_v13 : IVec S_ 1 := andi main_v8 main_v12
  let main_v14 : FVec F S100x2048 .f32 := Host.absf main_arg4
  let main_cst_4 : FVec F S_ .f32 := constant S_ .f32 0x7F800000#32
  let main_v15 : FVec F S100x2048 .f32 := broadcastInDim S100x2048 ![] bcast_S_S100x2048 main_cst_4
  let main_v16 : IVec S100x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S100x1024 : Shape := ⟨2, ![100, 1024]⟩
abbrev S128000x1024 : Shape := ⟨2, ![128000, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x100 : Shape := ⟨2, ![2048, 100]⟩
abbrev S1x100 : Shape := ⟨2, ![1, 100]⟩
abbrev S2048x1024 : Shape := ⟨2, ![2048, 1024]⟩
abbrev S1024x3072 : Shape := ⟨2, ![1024, 3072]⟩
abbrev S1x3072 : Shape := ⟨2, ![1, 3072]⟩
abbrev S1x128000 : Shape := ⟨2, ![1, 128000]⟩
abbrev S3200x1024 : Shape := ⟨2, ![3200, 1024]⟩
abbrev S1x3200 : Shape := ⟨2, ![1, 3200]⟩

abbrev nBuf : Space → Nat
  | .hbm => 111
  | .vmem => 9
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S100x1024, .f32⟩
  | .hbm, ⟨3, _⟩ => ⟨S128000x1024, .f32⟩
  | .hbm, ⟨4, _⟩ => ⟨S100x2048, .f32⟩
  | .hbm, ⟨5, _⟩ => ⟨S100, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S128000x1024, .f32⟩
  | .hbm, ⟨13, _⟩ => ⟨S128000, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x1024, .f32⟩
  | .hbm, ⟨32, _⟩ => ⟨S1x1024, .i1⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1x2048, .f32⟩
  | .hbm, ⟨39, _⟩ => ⟨S2048x100, .f32⟩
  | .hbm, ⟨40, _⟩ => ⟨S1x100, .f32⟩
  | .hbm, ⟨41, _⟩ => ⟨S1x100, .f32⟩
  | .hbm, ⟨42, _⟩ => ⟨S1x100, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S1, .f32⟩
  | .hbm, ⟨48, _⟩ => ⟨S1x1, .f32⟩
  | .hbm, ⟨49, _⟩ => ⟨S1x100, .f32⟩
  | .hbm, ⟨50, _⟩ => ⟨S1x100, .f32⟩
  | .hbm, ⟨51, _⟩ => ⟨S1x100, .f32⟩
  | .hbm, ⟨52, _⟩ => ⟨S_, .f32⟩
  | .hbm, ⟨53, _⟩ => ⟨S1, .f32⟩
  | .hbm, ⟨54, _⟩ => ⟨S1x1, .f32⟩
  | .hbm, ⟨55, _⟩ => ⟨S1x100, .f32⟩
  | .hbm, ⟨56, _⟩ => ⟨S1x100, .f32⟩
  | .hbm, ⟨57, _⟩ => ⟨S1x1024, .f32⟩
  | .hbm, ⟨58, _⟩ => ⟨S1x2048, .f32⟩
  | .hbm, ⟨59, _⟩ => ⟨S2048x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1024x3072, .f32⟩
  | .hbm, ⟨67, _⟩ => ⟨S1x3072, .f32⟩
  | .hbm, ⟨68, _⟩ => ⟨S1x3072, .f32⟩
  | .hbm, ⟨69, _⟩ => ⟨S1x3072, .f32⟩
  | .hbm, ⟨70, _⟩ => ⟨S1024x3072, .f32⟩
  | .hbm, ⟨71, _⟩ => ⟨S1x3072, .f32⟩
  | .hbm, ⟨72, _⟩ => ⟨S1x3072, .f32⟩
  | .hbm, ⟨73, _⟩ => ⟨S1x3072, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S_, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1x128000, .f32⟩
  | .hbm, ⟨108, _⟩ => ⟨S1x128000, .f32⟩
  | .hbm, ⟨109, _⟩ => ⟨S1x128000, .f32⟩
  | .hbm, ⟨110, _⟩ => ⟨S1x1x1024, .f32⟩
  | .local _ .vmem, ⟨0, _⟩ => ⟨S1x1024, .f32⟩
  | .local _ .vmem, ⟨1, _⟩ => ⟨S3200x1024, .f32⟩
  | .local _ .vmem, ⟨2, _⟩ => ⟨S3200x1024, .f32⟩
  | .local _ .vmem, ⟨3, _⟩ => ⟨S1x3200, .f32⟩
  | .local _ .vmem, ⟨4, _⟩ => ⟨S1x3200, .f32⟩
  | .local _ .vmem, ⟨5, _⟩ => ⟨S1x3200, .f32⟩
  | .local _ .vmem, ⟨6, _⟩ => ⟨S1x3200, .f32⟩
  | .local _ .vmem, ⟨7, _⟩ => ⟨S1x128000, .f32⟩
  | .local _ .vmem, ⟨8, _⟩ => ⟨S1x128000, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_cst_0 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_cst : Ref sig .tc := ⟨.hbm, 63, rfl⟩
abbrev main_call1_v0 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_2 : Ref sig .tc := ⟨.hbm, 83, rfl⟩
abbrev main_v43 : Ref sig .tc := ⟨.hbm, 84, rfl⟩
abbrev main_v44 : Ref sig .tc := ⟨.hbm, 85, rfl⟩
abbrev main_cst_3 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_4 : Ref sig .tc := ⟨.hbm, 92, rfl⟩
abbrev main_v50 : Ref sig .tc := ⟨.hbm, 93, rfl⟩
abbrev main_v51 : Ref sig .tc := ⟨.hbm, 94, rfl⟩
abbrev main_cst_5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_6 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x128000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1x1024_S1024 : S1x1x1024.ShapeCasts S1024
  bcast_S1024_S1x1024_1 : S1024.BroadcastsInDim S1x1024 (![1] : Fin 1 → Fin S1x1024.rank)
  concatenates_S1x1024_S1x1024_S1x2048_d1 : Shape.Concatenates [S1x1024, S1x1024] S1x2048 1
  transposes_S100x2048_S2048x100_1_0 : S100x2048.Transposes [1, 0] S2048x100
  bcast_S100_S1x100_1 : S100.BroadcastsInDim S1x100 (![1] : Fin 1 → Fin S1x100.rank)
  reducesTo_S1x100_S1_d1 : S1x100.ReducesTo [1] S1
  bcast_S1x1_S1x100_0_1 : S1x1.BroadcastsInDim S1x100 (![0, 1] : Fin 2 → Fin S1x100.rank)
  transposes_S1024x2048_S2048x1024_1_0 : S1024x2048.Transposes [1, 0] S2048x1024
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S128000_S1x128000_1 : S128000.BroadcastsInDim S1x128000 (![1] : Fin 1 → Fin S1x128000.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  inb_S1x128000_S1x128000_0_0 : ∀ a, (![0, 0] : Fin 2 → Nat) a + S1x128000.size a ≤ S1x128000.size a
  h_S1x128000 : 0 < S1x128000.numel
  shapeCasts_S1x128000_S1x128000 : S1x128000.ShapeCasts S1x128000
  reduces_S1x128000_S1 : S1x128000.Reduces [1] S1
  shapeCasts_S1_S1x1 : S1.ShapeCasts S1x1
  broadcasts_S1x1_S1x128000 : S1x1.Broadcasts S1x128000
  bcast_S1x1024_S1x1x1024_1_2 : S1x1024.BroadcastsInDim S1x1x1024 (![1, 2] : Fin 2 → Fin S1x1x1024.rank)
  gather_S128000x1024_S1x1_S1x1024_1_0_n_n_0_1_11024_wf : GatherDims.WF S128000x1024 S1x1 S1x1024 [1] [0] [] [0] [] 1 ![1, 1024]
  dot_S1x2048_S2048x100_S1x100_1_0_0_1_n_n_wf : DotDims.WF S1x2048 S2048x100 S1x100 [1] [0] [0] [1] [] []
  dot_S1x100_S100x1024_S1x1024_1_0_0_1_n_n_wf : DotDims.WF S1x100 S100x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1024.size a ≤ S128000x1024.size a
  hwx0_1 : ∀ i : grid0.Coords, EltTy.bits .f32 = 32 ∨ (Rect.block (s := S128000x1024) S3200x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x128000.size a
  hwx0_2 : ∀ i : grid0.Coords, EltTy.bits .f32 = 32 ∨ (Rect.block (s := S1x128000) S1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3200.size a ≤ S1x128000.size a
  hwx0_3 : ∀ i : grid0.Coords, EltTy.bits .f32 = 32 ∨ (Rect.block (s := S1x128000) S1x3200.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128000.size a ≤ S1x128000.size a
  hwx1_0 : ∀ i : grid1.Coords, EltTy.bits .f32 = 32 ∨ (Rect.block (s := S1x128000) S1x128000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128000.size a ≤ S1x128000.size a
  hwx1_1 : ∀ i : grid1.Coords, EltTy.bits .f32 = 32 ∨ (Rect.block (s := S1x128000) S1x128000.size (cc1_transform_1 i) (hinb1_1 i)).WholeWords (EltTy.packing .f32)

variable [Facts₀]

def gather_S128000x1024_S1x1_S1x1024_1_0_n_n_0_1_11024 : GatherDims S128000x1024 S1x1 S1x1024 where
  offsetDims := [1]
  collapsedSliceDims := [0]
  operandBatchingDims := []
  startIndicesBatchingDims := []
  startIndexMap := [0]
  indexVectorDim := 1
  sliceSizes := ![1, 1024]
  wf := gather_S128000x1024_S1x1_S1x1024_1_0_n_n_0_1_11024_wf
def dot_S1x2048_S2048x100_S1x100_1_0_0_1_n_n : DotDims S1x2048 S2048x100 S1x100 where
  lhsContracting := [1]
  rhsContracting := [0]
  lhsNonContracting := [0]
  rhsNonContracting := [1]
  lhsBatch := []
  rhsBatch := []
  wf := dot_S1x2048_S2048x100_S1x100_1_0_0_1_n_n_wf
def dot_S1x100_S100x1024_S1x1024_1_0_0_1_n_n : DotDims S1x100 S100x1024 S1x1024 where
  lhsContracting := [1]
  rhsContracting := [0]
  lhsNonContracting := [0]
  rhsNonContracting := [1]
  lhsBatch := []
  rhsBatch := []
  wf := dot_S1x100_S100x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v61) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S3200x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v63) S1x128000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v64) S1x128000.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S100x1024 : Shape := ⟨2, ![100, 1024]⟩
abbrev S128000x1024 : Shape := ⟨2, ![128000, 1024]⟩
abbrev S100x2048 : Shape := ⟨2, ![100, 2048]⟩
abbrev S100 : Shape := ⟨1, ![100]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x100 : Shape := ⟨2, ![2048, 100]⟩
abbrev S1x100 : Shape := ⟨2, ![1, 100]⟩
abbrev S2048x1024 : Shape := ⟨2, ![2048, 1024]⟩
abbrev S1024x3072 : Shape := ⟨2, ![1024, 3072]⟩
abbrev S1x3072 : Shape := ⟨2, ![1, 3072]⟩
abbrev S1024x128000 : Shape := ⟨2, ![1024, 128000]⟩
abbrev S1x128000 : Shape := ⟨2, ![1, 128000]⟩

abbrev nBuf : Space → Nat
  | .hbm => 114
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S100x1024, .f32⟩
  | .hbm, ⟨3, _⟩ => ⟨S128000x1024, .f32⟩
  | .hbm, ⟨4, _⟩ => ⟨S100x2048, .f32⟩
  | .hbm, ⟨5, _⟩ => ⟨S100, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S128000x1024, .f32⟩
  | .hbm, ⟨13, _⟩ => ⟨S128000, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x2048, .f32⟩
  | .hbm, ⟨26, _⟩ => ⟨S2048x100, .f32⟩
  | .hbm, ⟨27, _⟩ => ⟨S1x100, .f32⟩
  | .hbm, ⟨28, _⟩ => ⟨S1x100, .f32⟩
  | .hbm, ⟨29, _⟩ => ⟨S1x100, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x100, .f32⟩
  | .hbm, ⟨37, _⟩ => ⟨S1x100, .f32⟩
  | .hbm, ⟨38, _⟩ => ⟨S1x100, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x100, .f32⟩
  | .hbm, ⟨43, _⟩ => ⟨S1x100, .f32⟩
  | .hbm, ⟨44, _⟩ => ⟨S1x1024, .f32⟩
  | .hbm, ⟨45, _⟩ => ⟨S1x2048, .f32⟩
  | .hbm, ⟨46, _⟩ => ⟨S2048x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1024x3072, .f32⟩
  | .hbm, ⟨54, _⟩ => ⟨S1x3072, .f32⟩
  | .hbm, ⟨55, _⟩ => ⟨S1x3072, .f32⟩
  | .hbm, ⟨56, _⟩ => ⟨S1x3072, .f32⟩
  | .hbm, ⟨57, _⟩ => ⟨S1024x3072, .f32⟩
  | .hbm, ⟨58, _⟩ => ⟨S1x3072, .f32⟩
  | .hbm, ⟨59, _⟩ => ⟨S1x3072, .f32⟩
  | .hbm, ⟨60, _⟩ => ⟨S1x3072, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S_, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1024x128000, .f32⟩
  | .hbm, ⟨95, _⟩ => ⟨S1x128000, .f32⟩
  | .hbm, ⟨96, _⟩ => ⟨S1x128000, .f32⟩
  | .hbm, ⟨97, _⟩ => ⟨S1x128000, .f32⟩
  | .hbm, ⟨98, _⟩ => ⟨S_, .f32⟩
  | .hbm, ⟨99, _⟩ => ⟨S1, .f32⟩
  | .hbm, ⟨100, _⟩ => ⟨S_, .f32⟩
  | .hbm, ⟨101, _⟩ => ⟨S1, .f32⟩
  | .hbm, ⟨102, _⟩ => ⟨S1, .f32⟩
  | .hbm, ⟨103, _⟩ => ⟨S1x1, .f32⟩
  | .hbm, ⟨104, _⟩ => ⟨S1x128000, .f32⟩
  | .hbm, ⟨105, _⟩ => ⟨S1x128000, .f32⟩
  | .hbm, ⟨106, _⟩ => ⟨S1x128000, .f32⟩
  | .hbm, ⟨107, _⟩ => ⟨S_, .f32⟩
  | .hbm, ⟨108, _⟩ => ⟨S1, .f32⟩
  | .hbm, ⟨109, _⟩ => ⟨S1x1, .f32⟩
  | .hbm, ⟨110, _⟩ => ⟨S1x1, .f32⟩
  | .hbm, ⟨111, _⟩ => ⟨S1x128000, .f32⟩
  | .hbm, ⟨112, _⟩ => ⟨S1x128000, .f32⟩
  | .hbm, ⟨113, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_3 : Ref sig .tc := ⟨.hbm, 70, rfl⟩
abbrev main_v49 : Ref sig .tc := ⟨.hbm, 71, rfl⟩
abbrev main_v50 : Ref sig .tc := ⟨.hbm, 72, rfl⟩
abbrev main_cst_4 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1024 : S1x1x1024.ShapeCasts S1024
  bcast_S1024_S1x1024_1 : S1024.BroadcastsInDim S1x1024 (![1] : Fin 1 → Fin S1x1024.rank)
  concatenates_S1x1024_S1x1024_S1x2048_d1 : Shape.Concatenates [S1x1024, S1x1024] S1x2048 1
  transposes_S100x2048_S2048x100_1_0 : S100x2048.Transposes [1, 0] S2048x100
  bcast_S100_S1x100_1 : S100.BroadcastsInDim S1x100 (![1] : Fin 1 → Fin S1x100.rank)
  reducesTo_S1x100_S1_d1 : S1x100.ReducesTo [1] S1
  h_S_ : 0 < S_.numel
  bcast_S1x1_S1x100_0_1 : S1x1.BroadcastsInDim S1x100 (![0, 1] : Fin 2 → Fin S1x100.rank)
  transposes_S1024x2048_S2048x1024_1_0 : S1024x2048.Transposes [1, 0] S2048x1024
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S128000x1024_S1024x128000_1_0 : S128000x1024.Transposes [1, 0] S1024x128000
  bcast_S128000_S1x128000_1 : S128000.BroadcastsInDim S1x128000 (![1] : Fin 1 → Fin S1x128000.rank)
  reducesTo_S1x128000_S1_d1 : S1x128000.ReducesTo [1] S1
  bcast_S1x1_S1x128000_0_1 : S1x1.BroadcastsInDim S1x128000 (![0, 1] : Fin 2 → Fin S1x128000.rank)
  bcast_S1x1024_S1x1x1024_1_2 : S1x1024.BroadcastsInDim S1x1x1024 (![1, 2] : Fin 2 → Fin S1x1x1024.rank)
  gather_S128000x1024_S1x1_S1x1024_1_0_n_n_0_1_11024_wf : GatherDims.WF S128000x1024 S1x1 S1x1024 [1] [0] [] [0] [] 1 ![1, 1024]
  dot_S1x2048_S2048x100_S1x100_1_0_0_1_n_n_wf : DotDims.WF S1x2048 S2048x100 S1x100 [1] [0] [0] [1] [] []
  dot_S1x100_S100x1024_S1x1024_1_0_0_1_n_n_wf : DotDims.WF S1x100 S100x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x128000_S1x128000_1_0_0_1_n_n_wf : DotDims.WF S1x1024 S1024x128000 S1x128000 [1] [0] [0] [1] [] []

variable [Facts₀]

def gather_S128000x1024_S1x1_S1x1024_1_0_n_n_0_1_11024 : GatherDims S128000x1024 S1x1 S1x1024 where
  offsetDims := [1]
  collapsedSliceDims := [0]
  operandBatchingDims := []
  startIndicesBatchingDims := []
  startIndexMap := [0]
  indexVectorDim := 1
  sliceSizes := ![1, 1024]
  wf := gather_S128000x1024_S1x1_S1x1024_1_0_n_n_0_1_11024_wf
def dot_S1x2048_S2048x100_S1x100_1_0_0_1_n_n : DotDims S1x2048 S2048x100 S1x100 where
  lhsContracting := [1]
  rhsContracting := [0]
  lhsNonContracting := [0]
  rhsNonContracting := [1]
  lhsBatch := []
  rhsBatch := []
  wf := dot_S1x2048_S2048x100_S1x100_1_0_0_1_n_n_wf
def dot_S1x100_S100x1024_S1x1024_1_0_0_1_n_n : DotDims S1x100 S100x1024 S1x1024 where
  lhsContracting := [1]
  rhsContracting := [0]
  lhsNonContracting := [0]
  rhsNonContracting := [1]
  lhsBatch := []
  rhsBatch := []
  wf := dot_S1x100_S100x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x128000_S1x128000_1_0_0_1_n_n : DotDims S1x1024 S1024x128000 S1x128000 where
  lhsContracting := [1]
  rhsContracting := [0]
  lhsNonContracting := [0]
  rhsNonContracting := [1]
  lhsBatch := []
  rhsBatch := []
  wf := dot_S1x1024_S1024x128000_S1x128000_1_0_0_1_n_n_wf

class Facts : Prop extends Facts₀ where

variable [Facts]
-- ==== Proof.Spec.lean ====
/-
  The two functions both programs compute after the recurrent step, stated once over literal shapes and index by index
  on the extended reals: the output projection (a row vector against every row of the weight table, plus a bias) and the
  log-softmax of the resulting row in its max-shifted form.
-/
import Idealize.ShloMosaic.PureOps.Ideal
import Idealize.ShloMosaic.Lib.ValueIdx

noncomputable section

open scoped BigOperators

namespace Cert.Spec

open Idealize.ShloMosaic Idealize.ShloMosaic.ValueIdx

/-- The hidden row [1, 1024], the weight table [128000, 1024] and a row of logits [1, 128000]. -/
abbrev SH : Shape := ⟨2, ![1, 1024]⟩
abbrev SW : Shape := ⟨2, ![128000, 1024]⟩
abbrev SL : Shape := ⟨2, ![1, 128000]⟩

/-- Column `v` of a logits row, as an index of the weight table's rows. -/
abbrev col (j : SL.Idx) : Fin 128000 := ⟨(j 1).val, idx2_lt1 j⟩

/-- The output projection: logit `v` is the inner product of the hidden row with row `v` of the weights, plus
    bias `v`. -/
def logits (h : SH.Idx → EReal) (w : SW.Idx → EReal) (b : SL.Idx → EReal) : SL.Idx → EReal :=
  fun j => (∑ k : Fin 1024, h (ix2 (0 : Fin 1) k) * w (ix2 (col j) k)) + b j

/-- The largest entry of the row: the fold of `max` from −∞ over its 128000 entries. -/
def rowMax (x : SL.Idx → EReal) : EReal :=
  (Finset.univ : Finset (Fin 128000)).fold max (⊥ : EReal) fun k => x (ix2 (0 : Fin 1) k)

/-- The row's log-softmax in the max-shifted form: `(x v − M) − log Σ_k exp (x k − M)` with `M` the row's maximum. -/
def logSoftmax (x : SL.Idx → EReal) : SL.Idx → EReal :=
  fun j => (x j - rowMax x) - Ideal.log (∑ k : Fin 128000, Ideal.exp (x (ix2 (0 : Fin 1) k) - rowMax x))

end Cert.Spec

end
-- ==== Proof.Logits.lean ====
/-
  Region 0 (the output projection, 40 grid points of 3200 columns each), read as a value at the extended reals: whatever
  the TensorCore's buffers hold when the region is entered, the logits array it leaves is the specification's `logits` of
  the hidden row, the weight table and the bias row found there.
-/
import proofs.«424613_j17471926960376_3_alg».proof.Proof.Gen.KernelIdeal.Frame
import proofs.«424613_j17471926960376_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.LogitsValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## One block's product: the row against 3200 rows of the table, plus the bias block -/

/-- The two spellings of the zero offset of a whole-block access. -/
theorem zero_offsets : (![0, 0] : Fin 2 → Nat) = fun _ => 0 := funext fun a => by fin_cases a <;> rfl

/-- The product's left operand (the hidden row) is read at the output's row … -/
theorem lhs_row (i : S1x3200.Idx) (q : dot_S1x1024_S3200x1024_S1x3200_1_1_0_0_n_n.contr.Idx) :
    (dot_S1x1024_S3200x1024_S1x3200_1_1_0_0_n_n.lhsIdx i q 0).val = (i 0).val := by
  unfold DotDims.lhsIdx
  rw [dif_neg (show ¬(0 : Fin S1x1024.rank) ∈ dot_S1x1024_S3200x1024_S1x3200_1_1_0_0_n_n.lhsBatch by decide), dif_pos (show (0 : Fin S1x1024.rank) ∈ dot_S1x1024_S3200x1024_S1x3200_1_1_0_0_n_n.lhsNonContracting by decide)]
  rfl
/-- … and at the summation index along its 1024 entries; -/
theorem lhs_contr (i : S1x3200.Idx) (q : dot_S1x1024_S3200x1024_S1x3200_1_1_0_0_n_n.contr.Idx) :
    (dot_S1x1024_S3200x1024_S1x3200_1_1_0_0_n_n.lhsIdx i q 1).val = (q ⟨0, by decide⟩).val :=
  dot_S1x1024_S3200x1024_S1x3200_1_1_0_0_n_n.lhsIdx_val_of_single rfl i q
/-- the right operand (the block of the weight table) at the row the output's column names … -/
theorem rhs_row (i : S1x3200.Idx) (q : dot_S1x1024_S3200x1024_S1x3200_1_1_0_0_n_n.contr.Idx) :
    (dot_S1x1024_S3200x1024_S1x3200_1_1_0_0_n_n.rhsIdx i q 0).val = (i 1).val := by
  unfold DotDims.rhsIdx
  rw [dif_neg (show ¬(0 : Fin S3200x1024.rank) ∈ dot_S1x1024_S3200x1024_S1x3200_1_1_0_0_n_n.rhsBatch by decide), dif_pos (show (0 : Fin S3200x1024.rank) ∈ dot_S1x1024_S3200x1024_S1x3200_1_1_0_0_n_n.rhsNonContracting by decide)]
  rfl
/-- … and at the summation index along that row. -/
theorem rhs_contr (i : S1x3200.Idx) (q : dot_S1x1024_S3200x1024_S1x3200_1_1_0_0_n_n.contr.Idx) :
    (dot_S1x1024_S3200x1024_S1x3200_1_1_0_0_n_n.rhsIdx i q 1).val = (q ⟨0, by decide⟩).val :=
  dot_S1x1024_S3200x1024_S1x3200_1_1_0_0_n_n.rhsIdx_val_of_single rfl i q

/-- The hidden row's entry `k`, as the product reads it for output index `i`. -/
abbrev rowIdx (i : S1x3200.Idx) (k : Fin 1024) : S1x1024.Idx := fun a => match a with
  | ⟨0, _⟩ => ⟨(i 0).val, (i 0).isLt⟩
  | ⟨1, _⟩ => ⟨k.val, k.isLt⟩
/-- Entry `k` of the block's row that the output's column names. -/
abbrev tabIdx (i : S1x3200.Idx) (k : Fin 1024) : S3200x1024.Idx := fun a => match a with
  | ⟨0, _⟩ => ⟨(i 1).val, (i 1).isLt⟩
  | ⟨1, _⟩ => ⟨k.val, k.isLt⟩

/-- What one grid point computes, entry by entry: the inner product of the hidden row with the block's row named by
    the column, plus the bias block's entry. -/
theorem block_apply (x0 : Vec Ideal S1x1024 .f32) (x1 : Vec Ideal S3200x1024 .f32) (x2 : Vec Ideal S1x3200 .f32) (i : S1x3200.Idx) :
    k0_pay1 (F := Ideal) x0 x1 x2 i = (∑ k : Fin 1024, x0 (rowIdx i k) * x1 (tabIdx i k)) + x2 i := by
  unfold k0_pay1
  rw [addf_apply, shapeCast_self, shapeCast_self]
  simp only [matmul]
  rw [Ideal.matmul_constant_zero_apply, ← Equiv.sum_comp (ValueIdx.contrEquiv1 dot_S1x1024_S3200x1024_S1x3200_1_1_0_0_n_n 1024 rfl rfl).symm]
  congr 1
  refine Finset.sum_congr rfl fun k _ => ?_
  have hk := ValueIdx.contrEquiv1_symm_val dot_S1x1024_S3200x1024_S1x3200_1_1_0_0_n_n 1024 rfl rfl k
  have el : dot_S1x1024_S3200x1024_S1x3200_1_1_0_0_n_n.lhsIdx i ((ValueIdx.contrEquiv1 dot_S1x1024_S3200x1024_S1x3200_1_1_0_0_n_n 1024 rfl rfl).symm k) = rowIdx i k := funext fun a => Fin.ext (by
    match a with
    | ⟨0, _⟩ => exact lhs_row _ _
    | ⟨1, _⟩ => exact (lhs_contr _ _).trans hk)
  have er : dot_S1x1024_S3200x1024_S1x3200_1_1_0_0_n_n.rhsIdx i ((ValueIdx.contrEquiv1 dot_S1x1024_S3200x1024_S1x3200_1_1_0_0_n_n 1024 rfl rfl).symm k) = tabIdx i k := funext fun a => Fin.ext (by
    match a with
    | ⟨0, _⟩ => exact rhs_row _ _
    | ⟨1, _⟩ => exact (rhs_contr _ _).trans hk)
  rw [el, er]

variable (V : (c : Dev nD) → (b : Ref sig .tc) → Buf (Elt Ideal) ((c : Thread nD τ).loc b))

/-! ## From the blocks to the array -/

/-- Where the four windows sit at grid point `t`: the hidden row always at its one block; the weight table at row block
    `t`; the bias row and the output row at column block `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- One entry of one block against the specification: when the three blocks hold what the specification reads at
    array index `j`, the block's entry `y` is logit `j`. -/
theorem block_entry_eq (h : Cert.Spec.SH.Idx → EReal) (w : Cert.Spec.SW.Idx → EReal) (b : Cert.Spec.SL.Idx → EReal)
    (x0 : Vec Ideal S1x1024 .f32) (x1 : Vec Ideal S3200x1024 .f32) (x2 : Vec Ideal S1x3200 .f32)
    (y : S1x3200.Idx) (j : Cert.Spec.SL.Idx)
    (h0 : ∀ k : Fin 1024, x0 (rowIdx y k) = h (ix2 (0 : Fin 1) k))
    (h1 : ∀ k : Fin 1024, x1 (tabIdx y k) = w (ix2 (Cert.Spec.col j) k))
    (h2 : x2 y = b j) :
    k0_pay1 (F := Ideal) x0 x1 x2 y = Cert.Spec.logits h w b j := by
  rw [block_apply, h2]
  unfold Cert.Spec.logits
  congr 1
  exact Finset.sum_congr rfl fun k _ => by rw [h0 k, h1 k]

/-- What grid point `t` writes back is block `t` of the specification's logits of the arrays the region finds. -/
theorem flushed_eq (c : Dev nD) (t : Fin cfg0.N) :
    (dat0 (F := Ideal) V c).flushed 3 t
      = ((cfg0.win 3).blk t).view.read (Elt Ideal) (Cert.Spec.logits (V c main_v61) (V c main_arg12) (V c main_v62)) := by
  show (cfg0.win 3).cut (grid0.coords t) ((dat0 (F := Ideal) V c).after 3 t) = _
  rw [after0_3]
  unfold out0_3
  rw [View.canon_unit_zero zero_offsets]
  simp only [View.ld_unit_zero (S := S1x1024) zero_offsets, View.ld_unit_zero (S := S3200x1024) zero_offsets, View.ld_unit_zero (S := S1x3200) zero_offsets]
  obtain ⟨e00, e01, e10, e11, e20, e21, e30, e31⟩ := block_indices t
  funext y
  show k0_pay1 (F := Ideal) (iblk0 V c 0 t) (iblk0 V c 1 t) (iblk0 V c 2 t) y
    = Cert.Spec.logits (V c main_v61) (V c main_arg12) (V c main_v62) (((cfg0.win 3).blk t).view.emb y)
  have hy0 : (y 0).val < 1 := (y 0).isLt
  have hy1 : (y 1).val < 3200 := (y 1).isLt
  have ht : t.val < 40 := t.isLt
  refine block_entry_eq (V c main_v61) (V c main_arg12) (V c main_v62) (iblk0 V c 0 t) (iblk0 V c 1 t) (iblk0 V c 2 t) y (((cfg0.win 3).blk t).view.emb y) ?_ ?_ ?_
  · intro k
    show V c main_v61 (((cfg0.win 0).blk t).view.emb (rowIdx y k)) = V c main_v61 (ix2 (0 : Fin 1) k)
    refine congrArg (V c main_v61) (funext fun a => Fin.ext ?_)
    match a with
    | ⟨0, _⟩ => show win0_0.index t (0 : Fin 2) * 1 + 1 * (y 0).val = 0; omega
    | ⟨1, _⟩ => show win0_0.index t (1 : Fin 2) * 1024 + 1 * k.val = k.val; omega
  · intro k
    show V c main_arg12 (((cfg0.win 1).blk t).view.emb (tabIdx y k)) = V c main_arg12 (ix2 (Cert.Spec.col (((cfg0.win 3).blk t).view.emb y)) k)
    refine congrArg (V c main_arg12) (funext fun a => Fin.ext ?_)
    match a with
    | ⟨0, _⟩ => show win0_1.index t (0 : Fin 2) * 3200 + 1 * (y 1).val = win0_3.index t (1 : Fin 2) * 3200 + 1 * (y 1).val; omega
    | ⟨1, _⟩ => show win0_1.index t (1 : Fin 2) * 1024 + 1 * k.val = k.val; omega
  · show V c main_v62 (((cfg0.win 2).blk t).view.emb y) = V c main_v62 (((cfg0.win 3).blk t).view.emb y)
    refine congrArg (V c main_v62) (funext fun a => Fin.ext ?_)
    match a with
    | ⟨0, _⟩ => show win0_2.index t (0 : Fin 2) * 1 + 1 * (y 0).val = win0_3.index t (0 : Fin 2) * 1 + 1 * (y 0).val; omega
    | ⟨1, _⟩ => show win0_2.index t (1 : Fin 2) * 3200 + 1 * (y 1).val = win0_3.index t (1 : Fin 2) * 3200 + 1 * (y 1).val; omega

/-- An index of the logits row is in point `t`'s block iff each coordinate is in the block's range on its axis. -/
theorem mem_block (t : Fin cfg0.N) (i : S1x128000.Idx) :
    i ∈ ((cfg0.win 3).blk t).view.set ↔ ∀ a : Fin 2, win0_3.index t a * S1x3200.size a ≤ (i a).val ∧ (i a).val < win0_3.index t a * S1x3200.size a + S1x3200.size a := by
  show i ∈ ((View.whole main_v63).slice (win0_3.rect t)).set ↔ _
  rw [View.set_slice_whole, Rect.mem_set_unit]
  exact Iff.rfl

/-- Every column `v` of the row is written: by the grid point `v / 3200`, whose block holds columns
    `3200 * (v / 3200)` up to the next multiple of 3200. -/
theorem covered (i : S1x128000.Idx) :
    ∃ t : Fin cfg0.N, (cfg0.win 3).flush t = true ∧ i ∈ ((cfg0.win 3).blk t).view.set := by
  have hi0 : (i 0).val < 1 := (i 0).isLt
  have hi1 : (i 1).val < 128000 := (i 1).isLt
  have hN : cfg0.N = 40 := N_0
  let t : Fin cfg0.N := ⟨(i 1).val / 3200, by rw [hN]; omega⟩
  have htv : t.val = (i 1).val / 3200 := rfl
  obtain ⟨e00, e01, e10, e11, e20, e21, e30, e31⟩ := block_indices t
  refine ⟨t, flush0_3 t, ?_⟩
  rw [mem_block]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 3200 ≤ (i 1).val ∧ (i 1).val < win0_3.index t (1 : Fin 2) * 3200 + 3200; omega

/-- The logits array after region 0, from any entry contents `V`. -/
theorem region0_value (c : Dev nD) :
    (dat0 (F := Ideal) V c).arrAt 3 cfg0.N
      = Cert.Spec.logits (V c main_v61) (V c main_arg12) (V c main_v62) :=
  (dat0 (F := Ideal) V c).arrAt_eq_of_cover 3 (Cert.Spec.logits (V c main_v61) (V c main_arg12) (V c main_v62))
    (fun t _ => flushed_eq V c t) covered

end Cert.KernelIdeal.LogitsValue

end
-- ==== Proof.Softmax.lean ====
/-
  Region 1 (one grid point over the whole row of 128000 logits), read as a value at the extended reals: whatever the
  TensorCore's buffers hold when the region is entered, the array it leaves is the specification's `logSoftmax` of the
  logits row found there.
-/
import proofs.«424613_j17471926960376_3_alg».proof.Proof.Gen.KernelIdeal.Frame
import proofs.«424613_j17471926960376_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.SoftmaxValue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The payload at an index -/

/-- The accumulator of the row maximum: the f32 pattern of −∞ is the bottom extended real. -/
theorem ofBits_negInf_f32 : Ideal.ofBits .f32 0xFF800000#32 = (⊥ : EReal) := by
  simp [Ideal.ofBits, Ideal.ieee]

/-- Reducing the row's long axis: the source index over the one result index with coordinate `k` inserted is `(0, k)`. -/
theorem lift_row (h : S1x128000.Reduces [1] S1) (j : S1.Idx) (k : Fin 128000) :
    h.lift j k = ix2 (0 : Fin 1) k := by
  funext c
  apply Fin.ext
  match c with
  | ⟨0, _⟩ =>
    show (j ⟨0, _⟩).val = 0
    exact Nat.lt_one_iff.mp (Fin.isLt _)
  | ⟨1, _⟩ => rfl

/-- A `[1, 1]` vector spread along the row (the kept unit axis broadcast to 128000 columns) reads its one entry everywhere. -/
theorem bcast_col {α : Type} (w : S1x1.Idx → α) (hb : S1x1.Broadcasts S1x128000) (j : S1x128000.Idx) :
    broadcastTo S1x128000 w hb j = w (ix2 (0 : Fin 1) (0 : Fin 1)) :=
  broadcastTo_apply w hb j (ix2 (0 : Fin 1) (0 : Fin 1)) fun a =>
    match a with
    | ⟨0, _⟩ => rfl
    | ⟨1, _⟩ => rfl

/-- A `[1]` vector viewed `[1, 1]` (the reduced axis kept as a unit axis) reads its one entry. -/
theorem cast_col {α : Type} (v : S1.Idx → α) (hc : S1.ShapeCasts S1x1) (i : S1x1.Idx) :
    shapeCast S1x1 v hc i = v (ix1 (0 : Fin 1)) := by
  refine shapeCast_apply v hc i (ix1 (0 : Fin 1)) ?_
  rw [Shape.rowMajor_val_one, Shape.rowMajor_val_two]
  have h0 : (i 0).val = 0 := Nat.lt_one_iff.mp (Fin.isLt _)
  have h1 : (i 1).val = 0 := Nat.lt_one_iff.mp (Fin.isLt _)
  show 0 = (i 0).val * 1 + (i 1).val
  rw [h0, h1]

/-- The exponential and the logarithm at an index, at the extended reals. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The row's `<maximumf>` reduction from the −∞ accumulator is the specification's row maximum. -/
theorem rowMax_eq (x : FVec Ideal S1x128000 .f32) (h : S1x128000.Reduces [1] S1) (hφ : FKind.Formats .f32)
    (hacc : (0xFF800000#32 : BitVec 32) = FKind.maximumf.neutral .f32 hφ) (j : S1.Idx) :
    multiReduction (F := Ideal) .maximumf [1] S1 x 0xFF800000#32 h hφ hacc j = Cert.Spec.rowMax x := by
  refine (Ideal.multiReduction_maximumf_single x (0xFF800000#32 : BitVec 32) h hφ hacc j).trans ?_
  have hf : (x ∘ h.lift j) = fun k : Fin 128000 => x (ix2 (0 : Fin 1) k) :=
    funext fun k => congrArg x (lift_row h j k)
  rw [hf, Ideal.ofBits_def, ofBits_negInf_f32]
  rfl

/-- The row's `<add>` reduction is the sum over the row's 128000 entries. -/
theorem rowSum_eq (y : FVec Ideal S1x128000 .f32) (h : S1x128000.Reduces [1] S1) (hφ : FKind.Formats .f32)
    (hacc : (0x00000000#32 : BitVec 32) = FKind.add.neutral .f32 hφ) (j : S1.Idx) :
    multiReduction (F := Ideal) .add [1] S1 y 0x00000000#32 h hφ hacc j = ∑ k : Fin 128000, y (ix2 (0 : Fin 1) k) := by
  refine (Ideal.multiReduction_add_single y (0x00000000#32 : BitVec 32) h hφ hacc j).trans ?_
  exact Finset.sum_congr rfl fun k _ => congrArg y (lift_row h j k)

/-- THE PAYLOAD: the body's stored value, over any loaded row `x`, is the specification's log-softmax of `x`:
    the shifted row `x − M` with `M` the row maximum spread along the row, minus the logarithm of the row sum of its
    exponentials, spread likewise. -/
theorem pay_eq (x : Vec Ideal S1x128000 .f32) : k1_pay1 (F := Ideal) x = Cert.Spec.logSoftmax x := by
  funext j
  unfold k1_pay1 Cert.Spec.logSoftmax
  simp only [shapeCast_self]
  rw [subf_apply, subf_apply, bcast_col, bcast_col, log_apply, cast_col, cast_col]
  refine congrArg₂ (fun m s => x j - m - Ideal.log s) (rowMax_eq x _ _ _ _)
    ((rowSum_eq _ _ _ _ _).trans (Finset.sum_congr rfl fun k _ => ?_))
  rw [exp_apply, subf_apply, bcast_col, cast_col]
  exact congrArg (fun m => Ideal.exp (x (ix2 (0 : Fin 1) k) - m)) (rowMax_eq x _ _ _ _)

/-! ## From the one block to the array -/

/-- The block's offset inside its staging buffer is zero on both axes. -/
theorem hz : (![0, 0] : Fin 2 → Nat) = fun _ => 0 := funext fun a => by fin_cases a <;> rfl

/-- The printed index maps, decided over the grid's one point: both windows' blocks sit at block index 0 on both axes. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The input window's block is the whole row: an index of the block is the same index of the array. -/
theorem emb0_eq (t : Fin cfg1.N) (j : S1x128000.Idx) : ((cfg1.win 0).blk t).view.emb j = j := by
  obtain ⟨e0, e1, e2, e3⟩ := idx_facts t
  funext a; apply Fin.ext
  match a with
  | ⟨0, _⟩ => show win1_0.index t (0 : Fin 2) * 1 + 1 * (j 0).val = (j 0).val; rw [e0]; omega
  | ⟨1, _⟩ => show win1_0.index t (1 : Fin 2) * 128000 + 1 * (j 1).val = (j 1).val; rw [e1]; omega

/-- So is the output window's. -/
theorem emb1_eq (t : Fin cfg1.N) (j : S1x128000.Idx) : ((cfg1.win 1).blk t).view.emb j = j := by
  obtain ⟨e0, e1, e2, e3⟩ := idx_facts t
  funext a; apply Fin.ext
  match a with
  | ⟨0, _⟩ => show win1_1.index t (0 : Fin 2) * 1 + 1 * (j 0).val = (j 0).val; rw [e2]; omega
  | ⟨1, _⟩ => show win1_1.index t (1 : Fin 2) * 128000 + 1 * (j 1).val = (j 1).val; rw [e3]; omega

/-- The input block at the grid's point is the logits row as the region finds it. -/
theorem iblk_eq (c : Dev nD) (t : Fin cfg1.N) : iblk1 (F := Ideal) V c 0 t = V c main_v63 := by
  funext j
  show V c main_v63 (((cfg1.win 0).blk t).view.emb j) = V c main_v63 j
  exact congrArg (V c main_v63) (emb0_eq t j)

/-- WHAT THE POINT WRITES BACK is its block of the log-softmax of the logits row found at entry. -/
theorem flushed_eq (c : Dev nD) (t : Fin cfg1.N) :
    (dat1 (F := Ideal) V c).flushed 1 t
      = ((cfg1.win 1).blk t).view.read (Elt Ideal) (Cert.Spec.logSoftmax (V c main_v63)) := by
  show (cfg1.win 1).cut (grid1.coords t) ((dat1 V c).after 1 t) = _
  rw [after1_1]
  unfold out1_1
  rw [View.canon_unit_zero hz]
  simp only [View.ld_unit_zero (S := S1x128000) hz]
  rw [pay_eq, iblk_eq]
  funext j
  show Cert.Spec.logSoftmax (V c main_v63) j = Cert.Spec.logSoftmax (V c main_v63) (((cfg1.win 1).blk t).view.emb j)
  rw [emb1_eq]

/-- An index of the array is in the point's block iff each coordinate is in the block's range on its axis. -/
theorem mem_blk (t : Fin cfg1.N) (i : S1x128000.Idx) :
    i ∈ ((cfg1.win 1).blk t).view.set ↔ ∀ a : Fin 2, win1_1.index t a * S1x128000.size a ≤ (i a).val ∧ (i a).val < win1_1.index t a * S1x128000.size a + S1x128000.size a := by
  show i ∈ ((View.whole main_v64).slice (win1_1.rect t)).set ↔ _
  rw [View.set_slice_whole, Rect.mem_set_unit]
  exact Iff.rfl

/-- The one block is the whole array: every index is in it, and the point writes its block back. -/
theorem covered (i : S1x128000.Idx) :
    ∃ t : Fin cfg1.N, (cfg1.win 1).flush t = true ∧ i ∈ ((cfg1.win 1).blk t).view.set := by
  refine ⟨t1_0, flush1_1 t1_0, ?_⟩
  rw [mem_blk]
  obtain ⟨e0, e1, e2, e3⟩ := idx_facts t1_0
  have hi0 : (i 0).val < 1 := (i 0).isLt
  have hi1 : (i 1).val < 128000 := (i 1).isLt
  intro a
  match a with
  | ⟨0, _⟩ => show win1_1.index t1_0 (0 : Fin 2) * 1 ≤ (i 0).val ∧ (i 0).val < win1_1.index t1_0 (0 : Fin 2) * 1 + 1; rw [e2]; omega
  | ⟨1, _⟩ => show win1_1.index t1_0 (1 : Fin 2) * 128000 ≤ (i 1).val ∧ (i 1).val < win1_1.index t1_0 (1 : Fin 2) * 128000 + 128000; rw [e3]; omega

/-- The output array after region 1, from any entry contents `V`. -/
theorem region1_value (c : Dev nD) :
    (dat1 (F := Ideal) V c).arrAt 1 cfg1.N = Cert.Spec.logSoftmax (V c main_v63) := by
  exact (dat1 V c).arrAt_eq_of_cover 1 (Cert.Spec.logSoftmax (V c main_v63)) (fun t _ => flushed_eq V c t) covered

end Cert.KernelIdeal.SoftmaxValue

end
-- ==== Proof.KValue.lean ====
/-
  The kernel program's three results, read back from the last segment boundary to the contents at region 0's entry:
  the log-probabilities are region 1's log-softmax of region 0's logits of the entry's hidden row, weight table and bias
  row; the new hidden state is the entry's hidden row with a leading unit axis; the attention weights are the entry's,
  untouched by either region.
-/
import proofs.«424613_j17471926960376_3_alg».proof.Proof.Gen.KernelIdeal.Frame
import proofs.«424613_j17471926960376_3_alg».proof.Proof.Logits
import proofs.«424613_j17471926960376_3_alg».proof.Proof.Softmax
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The attention weights: written before the regions, read by neither, not written after them. -/
theorem attn_kept (c : Dev nD) :
    W7 m ρ c (Proc.devRef .tc main_v18) = W4 m ρ c (Proc.devRef .tc main_v18) := by
  have e : W7 m ρ c (Proc.devRef .tc main_v18) = W6 m ρ c (Proc.devRef .tc main_v18) := by
    show StableHlo.after hostOps2 (W6 m ρ c) (Proc.devRef .tc main_v18) = _
    after_results_simp
  rw [e, W6_of_ne m ρ c main_v18 (by decide), W5_of_ne m ρ c main_v18 (by decide)]

/-- The new hidden state: the hidden row at region 0's entry, given a leading unit axis after the regions. -/
theorem hidden_out (c : Dev nD) :
    W7 m ρ c (Proc.devRef .tc main_v65)
      = broadcastInDim S1x1x1024 ![1, 2] bcast_S1x1024_S1x1x1024_1_2 (W4 m ρ c (Proc.devRef .tc main_v61)) := by
  have e : W7 m ρ c (Proc.devRef .tc main_v65)
      = broadcastInDim S1x1x1024 ![1, 2] bcast_S1x1024_S1x1x1024_1_2 (W6 m ρ c (Proc.devRef .tc main_v61)) := by
    show StableHlo.after hostOps2 (W6 m ρ c) (Proc.devRef .tc main_v65) = _
    after_results_simp
  rw [e, W6_of_ne m ρ c main_v61 (by decide)]
  -- the hidden row is region 0's first input window: its array leaves the region as it entered
  exact congrArg _ ((W5_arr m ρ c 0).trans (((dat0 (V4 m ρ) c).arrAt_in 0 rfl _).trans (A_eq0 (V4 m ρ) c 0)))

/-- The log-probabilities: region 1's output array, over region 0's output array, over region 0's entry contents. -/
theorem logprobs (c : Dev nD) :
    W7 m ρ c (Proc.devRef .tc main_v64)
      = Cert.Spec.logSoftmax (Cert.Spec.logits (W4 m ρ c (Proc.devRef .tc main_v61))
          (W4 m ρ c (Proc.devRef .tc main_arg12)) (W4 m ρ c (Proc.devRef .tc main_v62))) := by
  have e : W7 m ρ c (Proc.devRef .tc main_v64) = W6 m ρ c (Proc.devRef .tc main_v64) := by
    show StableHlo.after hostOps2 (W6 m ρ c) (Proc.devRef .tc main_v64) = _
    after_results_simp
  rw [e]
  refine (W6_arr m ρ c 1).trans ?_
  rw [Cert.KernelIdeal.SoftmaxValue.region1_value (V5 m ρ) c]
  refine congrArg Cert.Spec.logSoftmax ?_
  refine (W5_arr m ρ c 3).trans ?_
  exact Cert.KernelIdeal.LogitsValue.region0_value (V4 m ρ) c

end Cert.KernelIdeal.KValue

end
-- ==== Proof.Take.lean ====
/-
  The embedding lookup. The kernel's program looks a row of the table up with an explicit bounds check: the token is
  wrapped once if negative (Python's indexing), the wrapped index is tested against [0, 127999], the row is gathered,
  and where the test fails the row is replaced by a fill value. For a token in [0, 128000) the wrap does nothing, the
  test holds, and the lookup is the plain gather at the wrapped index.
-/
import proofs.«424613_j17471926960376_3_alg».proof.KernelIdeal
import Idealize.ShloMosaic.Lib.ValueIdx
import Idealize.ShloMosaic.Lib.Affine
import Idealize.ShloMosaic.PureOps.Reduce

noncomputable section

namespace Cert.KernelIdeal.Take

open Cert.KernelIdeal Idealize.ShloMosaic Idealize.ShloMosaic.ValueIdx

variable {F : FTy → Type} [FloatOps F] [Facts]
open Facts₀ Facts

/-- The token (every entry of the one-entry array) is a row number of the table: 0 ≤ token < 128000, signed. -/
def InRange (tok : IVec S1 32) : Prop := ∀ i, 0 ≤ (tok i).toInt ∧ (tok i).toInt < 128000

/-- A reduction by `and` from 1 over an array of ones is 1. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a, show IntOp.andi 1#1 1#1 = 1#1 from by decide]
    exact ih

/-- The start index of the gather: the token, plus 128000 where it is negative, as a [1, 1] array. -/
def rowIdx (tok : IVec S1 32) : IVec S1x1 32 :=
  broadcastInDim S1x1 ![0] bcast_S1_S1x1_0
    (select (cmpi .slt tok (broadcastInDim S1 ![] bcast_S_S1 (constantI S_ 32 0#32)))
      (addi tok (broadcastInDim S1 ![] bcast_S_S1 (constantI S_ 32 128000#32))) tok)

/-- The bounds check: 1 where the start index lies in [0, 127999]. -/
def inBounds (tok : IVec S1 32) : IVec S1 1 :=
  Host.reduce IntOp.andi
    (andi (cmpi .sge (rowIdx tok) (broadcastInDim S1x1 ![] bcast_S_S1x1 (constantI S_ 32 0#32)))
      (cmpi .sle (rowIdx tok) (broadcastInDim S1x1 ![1] bcast_S1_S1x1_1 (constantI S1 32 127999#32))))
    (constantI S_ 1 1#1) reducesTo_S1x1_S1_d1 h_S_

/-- The gathered row. -/
def gathered (emb : FVec F S128000x1024 .f32) (tok : IVec S1 32) : FVec F S1x1024 .f32 :=
  Host.gather gather_S128000x1024_S1x1_S1x1024_1_0_n_n_0_1_11024 emb (rowIdx tok)

/-- The lookup with its bounds check: the gathered row where the check holds, the fill value elsewhere. -/
def taken (emb : FVec F S128000x1024 .f32) (tok : IVec S1 32) : FVec F S1x1024 .f32 :=
  select (broadcastInDim S1x1024 ![0] bcast_S1_S1x1024_0 (inBounds tok)) (gathered emb tok)
    (broadcastInDim S1x1024 ![] bcast_S_S1x1024 (constant S_ .f32 0x7FC00000#32))

/-- For a token in range the start index is the token itself, so it lies in [0, 128000). -/
theorem rowIdx_range (tok : IVec S1 32) (hr : InRange tok) (j : S1x1.Idx) :
    0 ≤ (rowIdx tok j).toInt ∧ (rowIdx tok j).toInt < 128000 := by
  obtain ⟨k, hk⟩ : ∃ k : S1.Idx, rowIdx tok j
      = Scalar.select (IntOp.cmpi .slt (tok k) 0#32) (IntOp.addi (tok k) 128000#32) (tok k) := ⟨_, rfl⟩
  rw [hk]
  have h0 : IntOp.cmpi .slt (tok k) 0#32 = 0#1 := eq_zero_of_ne_one fun h => by
    have h1 := IntOp.cmpi_slt.mp h
    have h2 := (hr k).1
    have h3 : (0#32 : BitVec 32).toInt = 0 := by decide
    omega
  rw [h0, select_zero]
  exact hr k

/-- For a token in range the bounds check holds. -/
theorem inBounds_eq (tok : IVec S1 32) (hr : InRange tok) (i : S1.Idx) : inBounds tok i = 1#1 := by
  unfold inBounds
  refine reduce_andi_one _ _ _ _ i (fun j => ?_) rfl
  obtain ⟨hj0, hj1⟩ := rowIdx_range tok hr j
  have e0 : (0#32 : BitVec 32).toInt = 0 := by decide
  have e1 : (127999#32 : BitVec 32).toInt = 127999 := by decide
  have a : IntOp.cmpi .sge (rowIdx tok j) 0#32 = 1#1 := IntOp.cmpi_sge.mpr (by omega)
  have b : IntOp.cmpi .sle (rowIdx tok j) 127999#32 = 1#1 := IntOp.cmpi_sle.mpr (by omega)
  show IntOp.andi (IntOp.cmpi .sge (rowIdx tok j) 0#32) (IntOp.cmpi .sle (rowIdx tok j) 127999#32) = 1#1
  rw [a, b]; decide

/-- For a token in range the checked lookup is the gathered row. -/
theorem taken_eq (emb : FVec F S128000x1024 .f32) (tok : IVec S1 32) (hr : InRange tok) :
    taken emb tok = gathered emb tok := by
  funext j
  obtain ⟨i, hi⟩ : ∃ i : S1.Idx, taken emb tok j
      = Scalar.select (inBounds tok i) (gathered emb tok j) (FloatOps.ofBits .f32 0x7FC00000#32) := ⟨_, rfl⟩
  rw [hi, inBounds_eq tok hr i, select_one]

end Cert.KernelIdeal.Take

end
-- ==== Proof.HostK.lean ====
/-
  The kernel program's host operations before its first region, read against the reference's stages. The two programs
  apply the same operations to the same arguments — the embedding lookup apart, where the kernel's program checks
  bounds (Take.lean) — so stretch by stretch each value the kernel's program holds is the reference's stage of that
  name's role: the embedded row, the hidden row, the attention weights, the combined row before and after its
  rectifier, the new hidden row and the broadcast bias.
-/
import proofs.«424613_j17471926960376_3_alg».proof.Proof.Gen.KernelIdeal.Frame
import proofs.«424613_j17471926960376_3_alg».proof.Proof.RefRead
import proofs.«424613_j17471926960376_3_alg».proof.Proof.Take
import Idealize.ShloMosaic.Lib.StableHlo.Run

set_option maxRecDepth 16384
set_option maxHeartbeats 4000000

noncomputable section

namespace Cert.KernelIdeal.HostValue

open Cert.KernelIdeal Cert.KernelIdeal.Gen
open Idealize.ShloMosaic Idealize.ShloMosaic.TcCoe Idealize.SL.Sem Idealize.ShloMosaic.StableHlo

/-- What one `simp` pass leaves unread under a concatenate's list of operands, read by rewriting. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable {F : FTy → Type} [FloatOps F] (m : (ℓ : Loc nD τ sig) → Buf (Elt F) ℓ) (ρ : Dev nD → PrngReg) (c : Dev nD)

/-! ## Buffers a stretch does not write keep their contents -/

theorem W1_kept_arg1 : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg2 : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg4 : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg5 : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg6 : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg7 : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg8 : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg9 : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg10 : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg11 : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg12 : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_kept_arg13 : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_kept_arg8 : W2 m ρ c (Proc.devRef .tc main_arg8) = W1 m ρ c (Proc.devRef .tc main_arg8) :=
  StableHlo.after_of_forall_not_mem (b := Proc.devRef .tc main_arg8) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_kept_arg9 : W2 m ρ c (Proc.devRef .tc main_arg9) = W1 m ρ c (Proc.devRef .tc main_arg9) :=
  StableHlo.after_of_forall_not_mem (b := Proc.devRef .tc main_arg9) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_kept_arg10 : W2 m ρ c (Proc.devRef .tc main_arg10) = W1 m ρ c (Proc.devRef .tc main_arg10) :=
  StableHlo.after_of_forall_not_mem (b := Proc.devRef .tc main_arg10) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_kept_arg11 : W2 m ρ c (Proc.devRef .tc main_arg11) = W1 m ρ c (Proc.devRef .tc main_arg11) :=
  StableHlo.after_of_forall_not_mem (b := Proc.devRef .tc main_arg11) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_kept_arg12 : W2 m ρ c (Proc.devRef .tc main_arg12) = W1 m ρ c (Proc.devRef .tc main_arg12) :=
  StableHlo.after_of_forall_not_mem (b := Proc.devRef .tc main_arg12) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_kept_arg13 : W2 m ρ c (Proc.devRef .tc main_arg13) = W1 m ρ c (Proc.devRef .tc main_arg13) :=
  StableHlo.after_of_forall_not_mem (b := Proc.devRef .tc main_arg13) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_v2 : W3 m ρ c (Proc.devRef .tc main_v2) = W2 m ρ c (Proc.devRef .tc main_v2) :=
  StableHlo.after_of_forall_not_mem (b := Proc.devRef .tc main_v2) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_v18 : W3 m ρ c (Proc.devRef .tc main_v18) = W2 m ρ c (Proc.devRef .tc main_v18) :=
  StableHlo.after_of_forall_not_mem (b := Proc.devRef .tc main_v18) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_arg8 : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_arg9 : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_arg10 : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_arg11 : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_arg12 : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_kept_arg13 : W3 m ρ c (Proc.devRef .tc main_arg13) = W2 m ρ c (Proc.devRef .tc main_arg13) :=
  StableHlo.after_of_forall_not_mem (b := Proc.devRef .tc main_arg13) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W4_kept_v18 : W4 m ρ c (Proc.devRef .tc main_v18) = W3 m ρ c (Proc.devRef .tc main_v18) :=
  StableHlo.after_of_forall_not_mem (b := Proc.devRef .tc main_v18) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W4_kept_arg12 : W4 m ρ c (Proc.devRef .tc main_arg12) = W3 m ρ c (Proc.devRef .tc main_arg12) :=
  StableHlo.after_of_forall_not_mem (b := Proc.devRef .tc main_arg12) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments at each boundary are the launch contents -/

theorem W1_arg1 : W1 m ρ c (Proc.devRef .tc main_arg1) = m ((c : Thread nD τ).loc main_arg1) :=
  (W1_kept_arg1 m ρ c).trans (rfl)
theorem W1_arg2 : W1 m ρ c (Proc.devRef .tc main_arg2) = m ((c : Thread nD τ).loc main_arg2) :=
  (W1_kept_arg2 m ρ c).trans (rfl)
theorem W1_arg4 : W1 m ρ c (Proc.devRef .tc main_arg4) = m ((c : Thread nD τ).loc main_arg4) :=
  (W1_kept_arg4 m ρ c).trans (rfl)
theorem W1_arg5 : W1 m ρ c (Proc.devRef .tc main_arg5) = m ((c : Thread nD τ).loc main_arg5) :=
  (W1_kept_arg5 m ρ c).trans (rfl)
theorem W1_arg6 : W1 m ρ c (Proc.devRef .tc main_arg6) = m ((c : Thread nD τ).loc main_arg6) :=
  (W1_kept_arg6 m ρ c).trans (rfl)
theorem W1_arg7 : W1 m ρ c (Proc.devRef .tc main_arg7) = m ((c : Thread nD τ).loc main_arg7) :=
  (W1_kept_arg7 m ρ c).trans (rfl)
theorem W3_arg8 : W3 m ρ c (Proc.devRef .tc main_arg8) = m ((c : Thread nD τ).loc main_arg8) :=
  (W3_kept_arg8 m ρ c).trans ((W2_kept_arg8 m ρ c).trans ((W1_kept_arg8 m ρ c).trans (rfl)))
theorem W3_arg9 : W3 m ρ c (Proc.devRef .tc main_arg9) = m ((c : Thread nD τ).loc main_arg9) :=
  (W3_kept_arg9 m ρ c).trans ((W2_kept_arg9 m ρ c).trans ((W1_kept_arg9 m ρ c).trans (rfl)))
theorem W3_arg10 : W3 m ρ c (Proc.devRef .tc main_arg10) = m ((c : Thread nD τ).loc main_arg10) :=
  (W3_kept_arg10 m ρ c).trans ((W2_kept_arg10 m ρ c).trans ((W1_kept_arg10 m ρ c).trans (rfl)))
theorem W3_arg11 : W3 m ρ c (Proc.devRef .tc main_arg11) = m ((c : Thread nD τ).loc main_arg11) :=
  (W3_kept_arg11 m ρ c).trans ((W2_kept_arg11 m ρ c).trans ((W1_kept_arg11 m ρ c).trans (rfl)))
theorem W3_arg13 : W3 m ρ c (Proc.devRef .tc main_arg13) = m ((c : Thread nD τ).loc main_arg13) :=
  (W3_kept_arg13 m ρ c).trans ((W2_kept_arg13 m ρ c).trans ((W1_kept_arg13 m ρ c).trans (rfl)))
theorem W4_arg12 : W4 m ρ c (Proc.devRef .tc main_arg12) = m ((c : Thread nD τ).loc main_arg12) :=
  (W4_kept_arg12 m ρ c).trans ((W3_kept_arg12 m ρ c).trans ((W2_kept_arg12 m ρ c).trans ((W1_kept_arg12 m ρ c).trans (rfl))))

/-! ## Stretch 1: the embedding lookup -/

/-- The embedded row as the kernel's program computes it: the bounds-checked lookup of the token's row. -/
theorem embedded_checked :
    W1 m ρ c (Proc.devRef .tc main_v0) = Cert.KernelIdeal.Take.taken (m ((c : Thread nD τ).loc main_arg3)) (m ((c : Thread nD τ).loc main_arg0)) := by
  show StableHlo.after hostOps0 (W0 m ρ c) (Proc.devRef .tc main_v0) = _
  after_results_simp
  rfl

/-- For a token in range it is the reference's gathered row. -/
theorem embedded (hr : Cert.KernelIdeal.Take.InRange (m ((c : Thread nD τ).loc main_arg0))) :
    W1 m ρ c (Proc.devRef .tc main_v0) = Cert.ReferenceIdeal.Read.val_main_v6 (m ((c : Thread nD τ).loc main_arg0)) (m ((c : Thread nD τ).loc main_arg3)) := by
  rw [embedded_checked, Cert.KernelIdeal.Take.taken_eq _ _ hr]
  rfl

/-! ## Stretch 2: attention and the combined row -/

/-- The previous hidden state as a row. -/
theorem hidden_row :
    W2 m ρ c (Proc.devRef .tc main_v2) = Cert.ReferenceIdeal.Read.val_main_v8 (m ((c : Thread nD τ).loc main_arg1)) := by
  show StableHlo.after hostOps0_1 (W1 m ρ c) (Proc.devRef .tc main_v2) = _
  have e1 := W1_arg1 m ρ c
  generalize W1 m ρ c = w at e1 ⊢
  after_results_simp
  results_rw
  rw [e1]
  rfl
/-- The attention weights: the softmax of the scores of the embedded row beside the hidden row. -/
theorem attn (hr : Cert.KernelIdeal.Take.InRange (m ((c : Thread nD τ).loc main_arg0))) :
    W2 m ρ c (Proc.devRef .tc main_v18) = Cert.ReferenceIdeal.Read.val_main_v24 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps0_1 (W1 m ρ c) (Proc.devRef .tc main_v18) = _
  have e0 := embedded m ρ c hr
  have e1 := W1_arg1 m ρ c
  have e4 := W1_arg4 m ρ c
  have e5 := W1_arg5 m ρ c
  generalize W1 m ρ c = w at e0 e1 e4 e5 ⊢
  after_results_simp
  results_rw
  rw [e0, e1, e4, e5]
  rfl
/-- The combined row before its rectifier. -/
theorem combined (hr : Cert.KernelIdeal.Take.InRange (m ((c : Thread nD τ).loc main_arg0))) :
    W2 m ρ c (Proc.devRef .tc main_v24) = Cert.ReferenceIdeal.Read.val_main_v30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps0_1 (W1 m ρ c) (Proc.devRef .tc main_v24) = _
  have e0 := embedded m ρ c hr
  have e1 := W1_arg1 m ρ c
  have e2 := W1_arg2 m ρ c
  have e4 := W1_arg4 m ρ c
  have e5 := W1_arg5 m ρ c
  have e6 := W1_arg6 m ρ c
  have e7 := W1_arg7 m ρ c
  generalize W1 m ρ c = w at e0 e1 e2 e4 e5 e6 e7 ⊢
  after_results_simp
  results_rw
  rw [e0, e1, e2, e4, e5, e6, e7]
  rfl

/-! ## Stretch 3: the rectifier -/

/-- The combined row after its rectifier. -/
theorem rectified (hr : Cert.KernelIdeal.Take.InRange (m ((c : Thread nD τ).loc main_arg0))) :
    W3 m ρ c (Proc.devRef .tc main_v25) = Cert.ReferenceIdeal.Read.val_main_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps0_2 (W2 m ρ c) (Proc.devRef .tc main_v25) = _
  have e := combined m ρ c hr
  generalize W2 m ρ c = w at e ⊢
  after_results_simp
  results_rw
  rw [e]
  rfl

/-! ## Stretch 4: the recurrent step and the bias row -/

/-- The new hidden row: one gated recurrent step from the rectified row and the previous hidden row. -/
theorem new_hidden (hr : Cert.KernelIdeal.Take.InRange (m ((c : Thread nD τ).loc main_arg0))) :
    W4 m ρ c (Proc.devRef .tc main_v61) = Cert.ReferenceIdeal.Read.val_main_v67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps0_3 (W3 m ρ c) (Proc.devRef .tc main_v61) = _
  have e25 := rectified m ρ c hr
  have e2 := (W3_kept_v2 m ρ c).trans (hidden_row m ρ c)
  have e8 := W3_arg8 m ρ c
  have e9 := W3_arg9 m ρ c
  have e10 := W3_arg10 m ρ c
  have e11 := W3_arg11 m ρ c
  generalize W3 m ρ c = w at e25 e2 e8 e9 e10 e11 ⊢
  after_results_simp
  results_rw
  rw [e25, e2, e8, e9, e10, e11]
  rfl
/-- The bias as a row. -/
theorem bias_row :
    W4 m ρ c (Proc.devRef .tc main_v62) = Cert.ReferenceIdeal.Read.val_main_v70 (m ((c : Thread nD τ).loc main_arg13)) := by
  show StableHlo.after hostOps0_3 (W3 m ρ c) (Proc.devRef .tc main_v62) = _
  have e13 := W3_arg13 m ρ c
  generalize W3 m ρ c = w at e13 ⊢
  after_results_simp
  results_rw
  rw [e13]
  rfl
/-- The attention weights are still there at region 0's entry. -/
theorem attn_at_entry (hr : Cert.KernelIdeal.Take.InRange (m ((c : Thread nD τ).loc main_arg0))) :
    W4 m ρ c (Proc.devRef .tc main_v18) = Cert.ReferenceIdeal.Read.val_main_v24 (m ((c : Thread nD τ).loc main_arg0)) (m ((c : Thread nD τ).loc main_arg1)) (m ((c : Thread nD τ).loc main_arg3)) (m ((c : Thread nD τ).loc main_arg4)) (m ((c : Thread nD τ).loc main_arg5)) :=
  (W4_kept_v18 m ρ c).trans ((W3_kept_v18 m ρ c).trans (attn m ρ c hr))

end Cert.KernelIdeal.HostValue

end
-- ==== Proof.PreRange.lean ====
/-
  The precondition read at the token: its last conjunct is `all (token ≥ 0 ∧ token < 128000)`, joined by `and` to the
  finiteness conjuncts; where the whole predicate is 1, that conjunct is 1 at every entry of the token array, which says
  0 ≤ token < 128000 as signed integers.
-/
import proofs.«424613_j17471926960376_3_alg».proof.Pre_finite_inputs
import Idealize.ShloMosaic.Lib.ValueIdx
import Idealize.ShloMosaic.Lib.Affine
import Idealize.ShloMosaic.Lib.ReduceAll

noncomputable section

namespace Cert.Pre_finite_inputs.TokenRange

open Cert.Pre_finite_inputs Idealize.ShloMosaic Idealize.ShloMosaic.ValueIdx

variable {F : FTy → Type} [FloatOps F] [Facts]
open Facts

instance : Subsingleton S_.Idx := ⟨fun a b => funext fun d => d.elim0⟩

/-- The predicate's last stage: where it is 1, both comparisons of the token are 1 at every entry. -/
theorem last_stage (v63 : IVec S_ 1) (v65 v67 : IVec S1 1) (h : fn_part4 (F := F) v63 v65 v67 ix0 = 1#1) (i : S1.Idx) :
    v65 i = 1#1 ∧ v67 i = 1#1 := by
  have h' : IntOp.andi (v63 ix0)
      (Host.reduce IntOp.andi (andi v65 v67) (constantI S_ 1 1#1) reducesTo_S1_S_d0 h_S_ ix0) = 1#1 := h
  have hall := Host.reduce_andi_all _ _ _ _ ix0 (IntOp.andi_eq_one.mp h').2 i
  exact IntOp.andi_eq_one.mp hall

/-- Under the precondition the token is a row number: 0 ≤ token < 128000, signed. -/
theorem token_range (main_arg0 : IVec S1 32) (main_arg1 : FVec F S1x1x1024 .f32) (main_arg2 : FVec F S100x1024 .f32) (main_arg3 : FVec F S128000x1024 .f32) (main_arg4 : FVec F S100x2048 .f32) (main_arg5 : FVec F S100 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S128000x1024 .f32) (main_arg13 : FVec F S128000 .f32)
    (h : fn (F := F) main_arg0 main_arg1 main_arg2 main_arg3 main_arg4 main_arg5 main_arg6 main_arg7 main_arg8 main_arg9 main_arg10 main_arg11 main_arg12 main_arg13 = fun _ => 1#1) (i : S1.Idx) :
    0 ≤ (main_arg0 i).toInt ∧ (main_arg0 i).toInt < 128000 := by
  obtain ⟨v63, hv⟩ : ∃ v63 : IVec S_ 1, fn (F := F) main_arg0 main_arg1 main_arg2 main_arg3 main_arg4 main_arg5 main_arg6 main_arg7 main_arg8 main_arg9 main_arg10 main_arg11 main_arg12 main_arg13
      = fn_part4 (F := F) v63 (cmpi .sge main_arg0 (broadcastInDim S1 ![] bcast_S_S1 (constantI S_ 32 0#32)))
          (cmpi .slt main_arg0 (broadcastInDim S1 ![] bcast_S_S1 (constantI S_ 32 128000#32))) := ⟨_, rfl⟩
  have e := congrFun h ix0
  rw [hv] at e
  obtain ⟨h0, h1⟩ := last_stage v63 _ _ e i
  have h0' : IntOp.cmpi .sge (main_arg0 i) 0#32 = 1#1 := h0
  have h1' : IntOp.cmpi .slt (main_arg0 i) 128000#32 = 1#1 := h1
  have e0 : (0#32 : BitVec 32).toInt = 0 := by decide
  have e1 : (128000#32 : BitVec 32).toInt = 128000 := by decide
  have a := IntOp.cmpi_sge.mp h0'
  have b := IntOp.cmpi_slt.mp h1'
  omega

end Cert.Pre_finite_inputs.TokenRange

end
-- ==== Proof.RefValue.lean ====
/-
  The reference's last stages read against the specification, at the extended reals: its logits stage (the hidden row
  times the transposed weight table, plus the broadcast bias) is the specification's `logits`, and its log-softmax
  stages (row maximum, shift, exponentials summed, logarithm, second shift) are the specification's `logSoftmax` of
  that logits row.
-/
import proofs.«424613_j17471926960376_3_alg».proof.Proof.RefRead
import proofs.«424613_j17471926960376_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read
open Idealize.ShloMosaic Idealize.ShloMosaic.TcCoe Idealize.SL.Sem Idealize.ShloMosaic.ValueIdx

/-! ## Facts that do not depend on the program's arguments -/

/-- The word `0xFF800000` is −∞. -/
theorem ofBits_neg_inf : Ideal.ofBits .f32 0xFF800000#32 = (⊥ : EReal) := by
  simp [Ideal.ofBits, Ideal.ieee]

/-- Reducing a row `[1, 128000]` over its second axis leaves a vector with one entry. -/
theorem reduces_row : S1x128000.Reduces [1] S1 := by decide

/-- Over the one entry of the reduced vector, the row index with column `k` put back on the reduced axis is `(0, k)`:
    the first axis has one point, the second coordinate is `k`. -/
theorem lift_row (h : S1x128000.Reduces [1] S1) (j : S1.Idx) (k : Fin 128000) :
    h.lift j k = ix2 (0 : Fin 1) k :=
  funext fun c => Fin.ext (by
    match c with
    | ⟨0, h0⟩ =>
      show h.liftVal j k.val ⟨0, h0⟩ = 0
      unfold Shape.Reduces.liftVal
      rw [dif_neg (by exact Nat.zero_ne_one), dif_pos (by exact Nat.zero_lt_one)]
      exact Nat.lt_one_iff.mp (j _).isLt
    | ⟨1, h1⟩ =>
      show h.liftVal j k.val ⟨1, h1⟩ = k.val
      unfold Shape.Reduces.liftVal
      exact dif_pos rfl)

/-- A max-reduce of a row from −∞ over its columns is, at the one entry of its result, the fold of `max` from −∞
    over the row's 128000 entries: `max` is commutative and associative, so the fold over the indices lying over
    that entry is the fold over the column coordinate, and the index over it with column `k` is `(0, k)`. -/
theorem max_reduce_row (x : (⟨S1x128000, .f32⟩ : BufTy).Contents (Elt Ideal)) (j : S1.Idx) :
    (Host.reduce (FloatOps.maximumf (F := Ideal) (φ := .f32)) x (val_main_call1_cst (F := Ideal))
        Gen.reducesTo_S1x128000_S1_d1 Gen.h_S_ : (⟨S1, .f32⟩ : BufTy).Contents (Elt Ideal)) j
      = Cert.Spec.rowMax x := by
  rw [Host.reduce_eq_fold_single _ x _ Gen.reducesTo_S1x128000_S1_d1 reduces_row Gen.h_S_ j]
  have e : x ∘ reduces_row.lift j = fun k : Fin 128000 => x (ix2 (0 : Fin 1) k) :=
    funext fun k => congrArg x (lift_row _ j k)
  rw [e, val_main_call1_cst_apply, Ideal.ofBits_def, ofBits_neg_inf]
  rfl

/-- The index at which the sum over the columns reads its operand is `(0, k)`. -/
theorem sum_idx_eq (j : S1.Idx) (k : Fin 128000) : idx_main_call1_v7 j k = ix2 (0 : Fin 1) k :=
  funext fun a => Fin.ext (by
    match a with
    | ⟨0, _⟩ => exact Nat.lt_one_iff.mp (j 0).isLt
    | ⟨1, _⟩ => rfl)

/-- The product's left factor is read at `(0, k)`: the hidden row has one row. -/
theorem dot_lidx_eq (i : S1x128000.Idx) (k : Fin 1024) : lidx_main_v69 i k = ix2 (0 : Fin 1) k :=
  funext fun a => Fin.ext (by
    match a with
    | ⟨0, _⟩ => exact Nat.lt_one_iff.mp (i 0).isLt
    | ⟨1, _⟩ => rfl)

/-- The product's right factor, the transposed weight table at `(k, v)`, is the weight table at `(v, k)`. -/
theorem dot_ridx_eq (i : S1x128000.Idx) (k : Fin 1024) :
    idx_main_v68 (ridx_main_v69 i k) = ix2 (Cert.Spec.col i) k :=
  funext fun a => Fin.ext (by
    match a with
    | ⟨0, _⟩ => rfl
    | ⟨1, _⟩ => rfl)

variable (x0 : (⟨S1, .i32⟩ : BufTy).Contents (Elt Ideal)) (x1 : (⟨S1x1x1024, .f32⟩ : BufTy).Contents (Elt Ideal)) (x2 : (⟨S100x1024, .f32⟩ : BufTy).Contents (Elt Ideal)) (x3 : (⟨S128000x1024, .f32⟩ : BufTy).Contents (Elt Ideal)) (x4 : (⟨S100x2048, .f32⟩ : BufTy).Contents (Elt Ideal)) (x5 : (⟨S100, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S128000x1024, .f32⟩ : BufTy).Contents (Elt Ideal)) (x13 : (⟨S128000, .f32⟩ : BufTy).Contents (Elt Ideal))

/-! ## The log-softmax stages, each read over the logits stage -/

/-- The max-reduce stage is the row maximum of the logits stage. -/
theorem rowMax_stage (j : S1.Idx) :
    val_main_call1_v0 (F := Ideal) x0 x1 x2 x3 x4 x5 x6 x7 x8 x9 x10 x11 x12 x13 j
      = Cert.Spec.rowMax (val_main_v71 (F := Ideal) x0 x1 x2 x3 x4 x5 x6 x7 x8 x9 x10 x11 x12 x13) := by
  unfold val_main_call1_v0
  generalize val_main_v71 (F := Ideal) x0 x1 x2 x3 x4 x5 x6 x7 x8 x9 x10 x11 x12 x13 = x
  exact max_reduce_row x j

/-- The maximum, joined with −∞ (which changes nothing) and broadcast along the row, is the row maximum at every
    column. -/
theorem rowMax_bcast (i : S1x128000.Idx) :
    val_main_call1_v4 (F := Ideal) x0 x1 x2 x3 x4 x5 x6 x7 x8 x9 x10 x11 x12 x13 i
      = Cert.Spec.rowMax (val_main_v71 (F := Ideal) x0 x1 x2 x3 x4 x5 x6 x7 x8 x9 x10 x11 x12 x13) := by
  rw [val_main_call1_v4_apply, val_main_call1_v3_apply, val_main_call1_v2_apply, val_main_call1_v1_apply,
    val_main_call1_cst_0_apply, rowMax_stage, Ideal.maximumf_def, Ideal.ofBits_def, ofBits_neg_inf]
  exact max_bot_left _

/-- The shifted row: each logit minus the row maximum. -/
theorem shifted_stage (i : S1x128000.Idx) :
    val_main_call1_v5 (F := Ideal) x0 x1 x2 x3 x4 x5 x6 x7 x8 x9 x10 x11 x12 x13 i
      = val_main_v71 (F := Ideal) x0 x1 x2 x3 x4 x5 x6 x7 x8 x9 x10 x11 x12 x13 i
        - Cert.Spec.rowMax (val_main_v71 (F := Ideal) x0 x1 x2 x3 x4 x5 x6 x7 x8 x9 x10 x11 x12 x13) := by
  rw [val_main_call1_v5_apply, rowMax_bcast, Ideal.subf_def]

/-- The sum stage: from zero, the exponentials of the shifted row summed over its columns. -/
theorem sumExp_stage (j : S1.Idx) :
    val_main_call1_v7 (F := Ideal) x0 x1 x2 x3 x4 x5 x6 x7 x8 x9 x10 x11 x12 x13 j
      = ∑ k : Fin 128000, Ideal.exp (val_main_v71 (F := Ideal) x0 x1 x2 x3 x4 x5 x6 x7 x8 x9 x10 x11 x12 x13 (ix2 (0 : Fin 1) k)
          - Cert.Spec.rowMax (val_main_v71 (F := Ideal) x0 x1 x2 x3 x4 x5 x6 x7 x8 x9 x10 x11 x12 x13)) := by
  rw [val_main_call1_v7_apply, val_main_call1_cst_1_apply, Ideal.ofBits_def, Ideal.ofBits_zero_f32, zero_add]
  refine Finset.sum_congr rfl fun k _ => ?_
  rw [val_main_call1_v6_apply, shifted_stage, sum_idx_eq, Ideal.hostUnary_exp_def]

/-- The logarithm of that sum, broadcast along the row. -/
theorem logSumExp_bcast (i : S1x128000.Idx) :
    val_main_call1_v10 (F := Ideal) x0 x1 x2 x3 x4 x5 x6 x7 x8 x9 x10 x11 x12 x13 i
      = Ideal.log (∑ k : Fin 128000, Ideal.exp (val_main_v71 (F := Ideal) x0 x1 x2 x3 x4 x5 x6 x7 x8 x9 x10 x11 x12 x13 (ix2 (0 : Fin 1) k)
          - Cert.Spec.rowMax (val_main_v71 (F := Ideal) x0 x1 x2 x3 x4 x5 x6 x7 x8 x9 x10 x11 x12 x13))) := by
  rw [val_main_call1_v10_apply, val_main_call1_v9_apply, val_main_call1_v8_apply, sumExp_stage,
    Ideal.hostUnary_log_def]

/-! ## The two statements -/

/-- The reference's logits stage is the specification's `logits` of its hidden-row stage, the weight table and its
    broadcast-bias stage. -/
theorem ref_logits :
    val_main_v71 (F := Ideal) x0 x1 x2 x3 x4 x5 x6 x7 x8 x9 x10 x11 x12 x13
      = Cert.Spec.logits (val_main_v67 (F := Ideal) x0 x1 x2 x3 x4 x5 x6 x7 x8 x9 x10 x11) x12 (val_main_v70 (F := Ideal) x13) := by
  funext i
  rw [val_main_v71_apply, val_main_v69_apply, Ideal.addf_def]
  generalize val_main_v67 (F := Ideal) x0 x1 x2 x3 x4 x5 x6 x7 x8 x9 x10 x11 = h
  generalize val_main_v70 (F := Ideal) x13 = b
  unfold Cert.Spec.logits
  refine congrArg₂ (· + ·) (Finset.sum_congr rfl fun k _ => ?_) rfl
  rw [val_main_v68_apply, dot_lidx_eq, dot_ridx_eq]

/-- The reference's first result is the specification's `logSoftmax` of its logits stage. -/
theorem ref_logSoftmax :
    val_main_v72 (F := Ideal) x0 x1 x2 x3 x4 x5 x6 x7 x8 x9 x10 x11 x12 x13
      = Cert.Spec.logSoftmax (val_main_v71 (F := Ideal) x0 x1 x2 x3 x4 x5 x6 x7 x8 x9 x10 x11 x12 x13) := by
  funext i
  rw [val_main_v72_apply, shifted_stage, logSumExp_bcast, Ideal.subf_def]
  generalize val_main_v71 (F := Ideal) x0 x1 x2 x3 x4 x5 x6 x7 x8 x9 x10 x11 x12 x13 = x
  rfl

end Cert.ReferenceIdeal.RefValue

end
-- ==== Proof.RefStages.lean ====
/-
  The reference's run, stretch by stretch. @main is one hundred host operations in a row; cut into five stretches, the
  contents of every buffer after a stretch are the fold of that stretch's operations over the contents before it. Read
  against the stages that name each operation's value as a function of the arguments: after the lookup the gathered row;
  after the attention block the hidden row and the attention weights; then the rectified combined row; then the new
  hidden row; and after the last stretch the log-probabilities and the new hidden state. No stretch writes an argument.
-/
import proofs.«424613_j17471926960376_3_alg».proof.Proof.RefRead
import Idealize.ShloMosaic.Lib.StableHlo.Run
import Idealize.ShloMosaic.Lib.Pipeline.Frame

set_option maxRecDepth 16384
set_option maxHeartbeats 4000000

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- What one `simp` pass leaves unread under a concatenate's list of operands, read by rewriting. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable {F : FTy → Type} [FloatOps F] (m : (ℓ : Loc nD τ sig) → Buf (Elt F) ℓ) (c : Dev nD)

/-- Contents carried to a buffer's own type and back are the contents. -/
theorem ofBuf_toBuf {T : BufTy} (x : TRef sig T) (v : T.Contents (Elt F)) : x.ofBuf (x.toBuf v) = v := by
  rcases x with ⟨ref, rfl, h1, h2⟩
  rfl

/-! ## The contents at each cut -/

/-- Device `c`'s buffers at launch. -/
abbrev U0 : Valuation τ sig (Elt F) := launchContents m c
/-- After the lookup. -/
abbrev U1 : Valuation τ sig (Elt F) := StableHlo.after opsA (U0 m c)
/-- After the attention block. -/
abbrev U2 : Valuation τ sig (Elt F) := StableHlo.after opsB (U1 m c)
/-- After the rectifier. -/
abbrev U3 : Valuation τ sig (Elt F) := StableHlo.after opsC (U2 m c)
/-- After the recurrent step. -/
abbrev U4 : Valuation τ sig (Elt F) := StableHlo.after opsD (U3 m c)
/-- After the last stretch. -/
abbrev U5 : Valuation τ sig (Elt F) := StableHlo.after opsE (U4 m c)

/-- The whole program's fold is the five stretches' folds in turn. -/
theorem after_ops : StableHlo.after (ops (F := F)) (launchContents m c) = U5 m c := by
  show StableHlo.after (opsA ++ (opsB ++ (opsC ++ (opsD ++ opsE)))) (launchContents m c) = _
  rw [StableHlo.after_append, StableHlo.after_append, StableHlo.after_append, StableHlo.after_append]

/-! ## Buffers a stretch does not write keep their contents -/

theorem U1_kept_arg1 : U1 m c (Proc.devRef .tc main_arg1) = U0 m c (Proc.devRef .tc main_arg1) :=
  StableHlo.after_of_forall_not_mem (b := Proc.devRef .tc main_arg1) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg2 : U1 m c (Proc.devRef .tc main_arg2) = U0 m c (Proc.devRef .tc main_arg2) :=
  StableHlo.after_of_forall_not_mem (b := Proc.devRef .tc main_arg2) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg4 : U1 m c (Proc.devRef .tc main_arg4) = U0 m c (Proc.devRef .tc main_arg4) :=
  StableHlo.after_of_forall_not_mem (b := Proc.devRef .tc main_arg4) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg5 : U1 m c (Proc.devRef .tc main_arg5) = U0 m c (Proc.devRef .tc main_arg5) :=
  StableHlo.after_of_forall_not_mem (b := Proc.devRef .tc main_arg5) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg6 : U1 m c (Proc.devRef .tc main_arg6) = U0 m c (Proc.devRef .tc main_arg6) :=
  StableHlo.after_of_forall_not_mem (b := Proc.devRef .tc main_arg6) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg7 : U1 m c (Proc.devRef .tc main_arg7) = U0 m c (Proc.devRef .tc main_arg7) :=
  StableHlo.after_of_forall_not_mem (b := Proc.devRef .tc main_arg7) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg8 : U1 m c (Proc.devRef .tc main_arg8) = U0 m c (Proc.devRef .tc main_arg8) :=
  StableHlo.after_of_forall_not_mem (b := Proc.devRef .tc main_arg8) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg9 : U1 m c (Proc.devRef .tc main_arg9) = U0 m c (Proc.devRef .tc main_arg9) :=
  StableHlo.after_of_forall_not_mem (b := Proc.devRef .tc main_arg9) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg10 : U1 m c (Proc.devRef .tc main_arg10) = U0 m c (Proc.devRef .tc main_arg10) :=
  StableHlo.after_of_forall_not_mem (b := Proc.devRef .tc main_arg10) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg11 : U1 m c (Proc.devRef .tc main_arg11) = U0 m c (Proc.devRef .tc main_arg11) :=
  StableHlo.after_of_forall_not_mem (b := Proc.devRef .tc main_arg11) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg12 : U1 m c (Proc.devRef .tc main_arg12) = U0 m c (Proc.devRef .tc main_arg12) :=
  StableHlo.after_of_forall_not_mem (b := Proc.devRef .tc main_arg12) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U1_kept_arg13 : U1 m c (Proc.devRef .tc main_arg13) = U0 m c (Proc.devRef .tc main_arg13) :=
  StableHlo.after_of_forall_not_mem (b := Proc.devRef .tc main_arg13) _ _ (List.forall_iff_forall_mem.mp (by
    simp only [opsA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_v6 : U2 m c (Proc.devRef .tc main_v6) = U1 m c (Proc.devRef .tc main_v6) :=
  StableHlo.after_of_forall_not_mem (b := Proc.devRef .tc main_v6) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg2 : U2 m c (Proc.devRef .tc main_arg2) = U1 m c (Proc.devRef .tc main_arg2) :=
  StableHlo.after_of_forall_not_mem (b := Proc.devRef .tc main_arg2) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg6 : U2 m c (Proc.devRef .tc main_arg6) = U1 m c (Proc.devRef .tc main_arg6) :=
  StableHlo.after_of_forall_not_mem (b := Proc.devRef .tc main_arg6) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg7 : U2 m c (Proc.devRef .tc main_arg7) = U1 m c (Proc.devRef .tc main_arg7) :=
  StableHlo.after_of_forall_not_mem (b := Proc.devRef .tc main_arg7) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg8 : U2 m c (Proc.devRef .tc main_arg8) = U1 m c (Proc.devRef .tc main_arg8) :=
  StableHlo.after_of_forall_not_mem (b := Proc.devRef .tc main_arg8) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg9 : U2 m c (Proc.devRef .tc main_arg9) = U1 m c (Proc.devRef .tc main_arg9) :=
  StableHlo.after_of_forall_not_mem (b := Proc.devRef .tc main_arg9) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg10 : U2 m c (Proc.devRef .tc main_arg10) = U1 m c (Proc.devRef .tc main_arg10) :=
  StableHlo.after_of_forall_not_mem (b := Proc.devRef .tc main_arg10) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg11 : U2 m c (Proc.devRef .tc main_arg11) = U1 m c (Proc.devRef .tc main_arg11) :=
  StableHlo.after_of_forall_not_mem (b := Proc.devRef .tc main_arg11) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg12 : U2 m c (Proc.devRef .tc main_arg12) = U1 m c (Proc.devRef .tc main_arg12) :=
  StableHlo.after_of_forall_not_mem (b := Proc.devRef .tc main_arg12) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U2_kept_arg13 : U2 m c (Proc.devRef .tc main_arg13) = U1 m c (Proc.devRef .tc main_arg13) :=
  StableHlo.after_of_forall_not_mem (b := Proc.devRef .tc main_arg13) _ _ (List.forall_iff_forall_mem.mp (by
    simp only [opsB, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_v8 : U3 m c (Proc.devRef .tc main_v8) = U2 m c (Proc.devRef .tc main_v8) :=
  StableHlo.after_of_forall_not_mem (b := Proc.devRef .tc main_v8) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_v24 : U3 m c (Proc.devRef .tc main_v24) = U2 m c (Proc.devRef .tc main_v24) :=
  StableHlo.after_of_forall_not_mem (b := Proc.devRef .tc main_v24) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_arg8 : U3 m c (Proc.devRef .tc main_arg8) = U2 m c (Proc.devRef .tc main_arg8) :=
  StableHlo.after_of_forall_not_mem (b := Proc.devRef .tc main_arg8) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_arg9 : U3 m c (Proc.devRef .tc main_arg9) = U2 m c (Proc.devRef .tc main_arg9) :=
  StableHlo.after_of_forall_not_mem (b := Proc.devRef .tc main_arg9) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_arg10 : U3 m c (Proc.devRef .tc main_arg10) = U2 m c (Proc.devRef .tc main_arg10) :=
  StableHlo.after_of_forall_not_mem (b := Proc.devRef .tc main_arg10) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_arg11 : U3 m c (Proc.devRef .tc main_arg11) = U2 m c (Proc.devRef .tc main_arg11) :=
  StableHlo.after_of_forall_not_mem (b := Proc.devRef .tc main_arg11) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_arg12 : U3 m c (Proc.devRef .tc main_arg12) = U2 m c (Proc.devRef .tc main_arg12) :=
  StableHlo.after_of_forall_not_mem (b := Proc.devRef .tc main_arg12) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U3_kept_arg13 : U3 m c (Proc.devRef .tc main_arg13) = U2 m c (Proc.devRef .tc main_arg13) :=
  StableHlo.after_of_forall_not_mem (b := Proc.devRef .tc main_arg13) _ _ (List.forall_iff_forall_mem.mp (by
    simp only [opsC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U4_kept_v24 : U4 m c (Proc.devRef .tc main_v24) = U3 m c (Proc.devRef .tc main_v24) :=
  StableHlo.after_of_forall_not_mem (b := Proc.devRef .tc main_v24) _ _ (List.forall_iff_forall_mem.mp (by
    simp only [opsD, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U4_kept_arg12 : U4 m c (Proc.devRef .tc main_arg12) = U3 m c (Proc.devRef .tc main_arg12) :=
  StableHlo.after_of_forall_not_mem (b := Proc.devRef .tc main_arg12) _ _ (List.forall_iff_forall_mem.mp (by
    simp only [opsD, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U4_kept_arg13 : U4 m c (Proc.devRef .tc main_arg13) = U3 m c (Proc.devRef .tc main_arg13) :=
  StableHlo.after_of_forall_not_mem (b := Proc.devRef .tc main_arg13) _ _ (List.forall_iff_forall_mem.mp (by
    simp only [opsD, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem U5_kept_v24 : U5 m c (Proc.devRef .tc main_v24) = U4 m c (Proc.devRef .tc main_v24) :=
  StableHlo.after_of_forall_not_mem (b := Proc.devRef .tc main_v24) _ _ (List.forall_iff_forall_mem.mp (by
    simp only [opsE, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments at each cut are the launch contents -/

theorem U1_arg1 : U1 m c (Proc.devRef .tc main_arg1) = m ((c.tc : Thread nD τ).loc main_arg1) :=
  (U1_kept_arg1 m c).trans (rfl)
theorem U1_arg4 : U1 m c (Proc.devRef .tc main_arg4) = m ((c.tc : Thread nD τ).loc main_arg4) :=
  (U1_kept_arg4 m c).trans (rfl)
theorem U1_arg5 : U1 m c (Proc.devRef .tc main_arg5) = m ((c.tc : Thread nD τ).loc main_arg5) :=
  (U1_kept_arg5 m c).trans (rfl)
theorem U2_arg2 : U2 m c (Proc.devRef .tc main_arg2) = m ((c.tc : Thread nD τ).loc main_arg2) :=
  (U2_kept_arg2 m c).trans ((U1_kept_arg2 m c).trans (rfl))
theorem U2_arg6 : U2 m c (Proc.devRef .tc main_arg6) = m ((c.tc : Thread nD τ).loc main_arg6) :=
  (U2_kept_arg6 m c).trans ((U1_kept_arg6 m c).trans (rfl))
theorem U2_arg7 : U2 m c (Proc.devRef .tc main_arg7) = m ((c.tc : Thread nD τ).loc main_arg7) :=
  (U2_kept_arg7 m c).trans ((U1_kept_arg7 m c).trans (rfl))
theorem U3_arg8 : U3 m c (Proc.devRef .tc main_arg8) = m ((c.tc : Thread nD τ).loc main_arg8) :=
  (U3_kept_arg8 m c).trans ((U2_kept_arg8 m c).trans ((U1_kept_arg8 m c).trans (rfl)))
theorem U3_arg9 : U3 m c (Proc.devRef .tc main_arg9) = m ((c.tc : Thread nD τ).loc main_arg9) :=
  (U3_kept_arg9 m c).trans ((U2_kept_arg9 m c).trans ((U1_kept_arg9 m c).trans (rfl)))
theorem U3_arg10 : U3 m c (Proc.devRef .tc main_arg10) = m ((c.tc : Thread nD τ).loc main_arg10) :=
  (U3_kept_arg10 m c).trans ((U2_kept_arg10 m c).trans ((U1_kept_arg10 m c).trans (rfl)))
theorem U3_arg11 : U3 m c (Proc.devRef .tc main_arg11) = m ((c.tc : Thread nD τ).loc main_arg11) :=
  (U3_kept_arg11 m c).trans ((U2_kept_arg11 m c).trans ((U1_kept_arg11 m c).trans (rfl)))
theorem U4_arg12 : U4 m c (Proc.devRef .tc main_arg12) = m ((c.tc : Thread nD τ).loc main_arg12) :=
  (U4_kept_arg12 m c).trans ((U3_kept_arg12 m c).trans ((U2_kept_arg12 m c).trans ((U1_kept_arg12 m c).trans (rfl))))
theorem U4_arg13 : U4 m c (Proc.devRef .tc main_arg13) = m ((c.tc : Thread nD τ).loc main_arg13) :=
  (U4_kept_arg13 m c).trans ((U3_kept_arg13 m c).trans ((U2_kept_arg13 m c).trans ((U1_kept_arg13 m c).trans (rfl))))

/-! ## The stages, stretch by stretch -/

/-- After the lookup: the gathered row of the table. -/
theorem gathered_row : U1 m c (Proc.devRef .tc main_v6) = val_main_v6 (F := F) (m ((c.tc : Thread nD τ).loc main_arg0)) (m ((c.tc : Thread nD τ).loc main_arg3)) := by
  show StableHlo.after opsA (U0 m c) (Proc.devRef .tc main_v6) = _
  after_results_simp
  rfl

/-- The previous hidden state as a row. -/
theorem hidden_row : U2 m c (Proc.devRef .tc main_v8) = val_main_v8 (F := F) (m ((c.tc : Thread nD τ).loc main_arg1)) := by
  show StableHlo.after opsB (U1 m c) (Proc.devRef .tc main_v8) = _
  have e1 := U1_arg1 m c
  generalize U1 m c = w at e1 ⊢
  after_results_simp
  results_rw
  rw [e1]
  rfl
/-- The attention weights. -/
theorem attn : U2 m c (Proc.devRef .tc main_v24) = val_main_v24 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after opsB (U1 m c) (Proc.devRef .tc main_v24) = _
  have e6 := gathered_row m c
  have e1 := U1_arg1 m c
  have e4 := U1_arg4 m c
  have e5 := U1_arg5 m c
  generalize U1 m c = w at e6 e1 e4 e5 ⊢
  after_results_simp
  results_rw
  rw [e6, e1, e4, e5]
  rfl
/-- The combined row after its rectifier. -/
theorem rectified : U3 m c (Proc.devRef .tc main_v31) = val_main_v31 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after opsC (U2 m c) (Proc.devRef .tc main_v31) = _
  have e24 := attn m c
  have e6 := (U2_kept_v6 m c).trans (gathered_row m c)
  have e2 := U2_arg2 m c
  have e6' := U2_arg6 m c
  have e7 := U2_arg7 m c
  generalize U2 m c = w at e24 e6 e2 e6' e7 ⊢
  after_results_simp
  results_rw
  rw [e24, e6, e2, e6', e7]
  rfl
/-- The new hidden row. -/
theorem new_hidden : U4 m c (Proc.devRef .tc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after opsD (U3 m c) (Proc.devRef .tc main_v67) = _
  have e31 := rectified m c
  have e8' := (U3_kept_v8 m c).trans (hidden_row m c)
  have e8 := U3_arg8 m c
  have e9 := U3_arg9 m c
  have e10 := U3_arg10 m c
  have e11 := U3_arg11 m c
  generalize U3 m c = w at e31 e8' e8 e9 e10 e11 ⊢
  after_results_simp
  results_rw
  rw [e31, e8', e8, e9, e10, e11]
  rfl
/-- The log-probabilities. The last stretch's stages are unfolded down to the new hidden row, which stays a variable: the
    two sides are then the same short chain over it, the weight table and the bias. -/
theorem logprobs : U5 m c (Proc.devRef .tc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show StableHlo.after opsE (U4 m c) (Proc.devRef .tc main_v72) = _
  have e67 := new_hidden m c
  have e12 := U4_arg12 m c
  have e13 := U4_arg13 m c
  generalize U4 m c = w at e67 e12 e13 ⊢
  after_results_simp
  results_rw
  rw [e67, e12, e13]
  simp only [val_main_v72, val_main_call1_v10, val_main_call1_v9, val_main_call1_v8, val_main_call1_v7, val_main_call1_cst_1,
    val_main_call1_v6, val_main_call1_v5, val_main_call1_v4, val_main_call1_v3, val_main_call1_v2, val_main_call1_v1,
    val_main_call1_cst_0, val_main_call1_v0, val_main_call1_cst, val_main_v71, val_main_v70, val_main_v69, val_main_v68]
  generalize val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = h
  simp only [ofBuf_toBuf]
  rfl
/-- The new hidden state. -/
theorem hidden_state : U5 m c (Proc.devRef .tc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after opsE (U4 m c) (Proc.devRef .tc main_v73) = _
  have e67 := new_hidden m c
  generalize U4 m c = w at e67 ⊢
  after_results_simp
  results_rw
  rw [e67]
  rfl
/-- The attention weights are still there at the end. -/
theorem attn_at_end : U5 m c (Proc.devRef .tc main_v24) = val_main_v24 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (U5_kept_v24 m c).trans ((U4_kept_v24 m c).trans ((U3_kept_v24 m c).trans (attn m c)))

/-! ## No operation writes an argument -/

theorem arg0_kept : StableHlo.after (ops (F := F)) (launchContents m c) (Proc.devRef .tc main_arg0) = m ((c.tc : Thread nD τ).loc main_arg0) :=
  (StableHlo.after_of_forall_not_mem (b := Proc.devRef .tc main_arg0) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg1_kept : StableHlo.after (ops (F := F)) (launchContents m c) (Proc.devRef .tc main_arg1) = m ((c.tc : Thread nD τ).loc main_arg1) :=
  (StableHlo.after_of_forall_not_mem (b := Proc.devRef .tc main_arg1) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg2_kept : StableHlo.after (ops (F := F)) (launchContents m c) (Proc.devRef .tc main_arg2) = m ((c.tc : Thread nD τ).loc main_arg2) :=
  (StableHlo.after_of_forall_not_mem (b := Proc.devRef .tc main_arg2) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg3_kept : StableHlo.after (ops (F := F)) (launchContents m c) (Proc.devRef .tc main_arg3) = m ((c.tc : Thread nD τ).loc main_arg3) :=
  (StableHlo.after_of_forall_not_mem (b := Proc.devRef .tc main_arg3) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg4_kept : StableHlo.after (ops (F := F)) (launchContents m c) (Proc.devRef .tc main_arg4) = m ((c.tc : Thread nD τ).loc main_arg4) :=
  (StableHlo.after_of_forall_not_mem (b := Proc.devRef .tc main_arg4) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg5_kept : StableHlo.after (ops (F := F)) (launchContents m c) (Proc.devRef .tc main_arg5) = m ((c.tc : Thread nD τ).loc main_arg5) :=
  (StableHlo.after_of_forall_not_mem (b := Proc.devRef .tc main_arg5) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg6_kept : StableHlo.after (ops (F := F)) (launchContents m c) (Proc.devRef .tc main_arg6) = m ((c.tc : Thread nD τ).loc main_arg6) :=
  (StableHlo.after_of_forall_not_mem (b := Proc.devRef .tc main_arg6) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg7_kept : StableHlo.after (ops (F := F)) (launchContents m c) (Proc.devRef .tc main_arg7) = m ((c.tc : Thread nD τ).loc main_arg7) :=
  (StableHlo.after_of_forall_not_mem (b := Proc.devRef .tc main_arg7) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg8_kept : StableHlo.after (ops (F := F)) (launchContents m c) (Proc.devRef .tc main_arg8) = m ((c.tc : Thread nD τ).loc main_arg8) :=
  (StableHlo.after_of_forall_not_mem (b := Proc.devRef .tc main_arg8) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg9_kept : StableHlo.after (ops (F := F)) (launchContents m c) (Proc.devRef .tc main_arg9) = m ((c.tc : Thread nD τ).loc main_arg9) :=
  (StableHlo.after_of_forall_not_mem (b := Proc.devRef .tc main_arg9) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg10_kept : StableHlo.after (ops (F := F)) (launchContents m c) (Proc.devRef .tc main_arg10) = m ((c.tc : Thread nD τ).loc main_arg10) :=
  (StableHlo.after_of_forall_not_mem (b := Proc.devRef .tc main_arg10) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg11_kept : StableHlo.after (ops (F := F)) (launchContents m c) (Proc.devRef .tc main_arg11) = m ((c.tc : Thread nD τ).loc main_arg11) :=
  (StableHlo.after_of_forall_not_mem (b := Proc.devRef .tc main_arg11) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg12_kept : StableHlo.after (ops (F := F)) (launchContents m c) (Proc.devRef .tc main_arg12) = m ((c.tc : Thread nD τ).loc main_arg12) :=
  (StableHlo.after_of_forall_not_mem (b := Proc.devRef .tc main_arg12) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem arg13_kept : StableHlo.after (ops (F := F)) (launchContents m c) (Proc.devRef .tc main_arg13) = m ((c.tc : Thread nD τ).loc main_arg13) :=
  (StableHlo.after_of_forall_not_mem (b := Proc.devRef .tc main_arg13) _ _ (List.forall_iff_forall_mem.mp (by
    simp only [ops, opsA, opsB, opsC, opsD, opsE, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-! ## The run -/

/-- No operation allocates a buffer. -/
theorem ops_fresh : (ops : List (HloOp τ sig (Elt F))).Forall fun op => op.fresh = ∅ := by
  simp only [ops, opsA, opsB, opsC, opsD, opsE, List.cons_append, List.nil_append, List.Forall]
  repeat' constructor

/-- Every weakly fair execution of the reference terminates with its three results at their stages of the arguments
    and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v24) = val_main_v24 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c main_v72).trans ((congrFun (after_ops m c) _).trans (logprobs m c)),
     (h c main_v73).trans ((congrFun (after_ops m c) _).trans (hidden_state m c)),
     (h c main_v24).trans ((congrFun (after_ops m c) _).trans (attn_at_end m c)),
     (h c main_arg0).trans (arg0_kept m c),
     (h c main_arg1).trans (arg1_kept m c),
     (h c main_arg2).trans (arg2_kept m c),
     (h c main_arg3).trans (arg3_kept m c),
     (h c main_arg4).trans (arg4_kept m c),
     (h c main_arg5).trans (arg5_kept m c),
     (h c main_arg6).trans (arg6_kept m c),
     (h c main_arg7).trans (arg7_kept m c),
     (h c main_arg8).trans (arg8_kept m c),
     (h c main_arg9).trans (arg9_kept m c),
     (h c main_arg10).trans (arg10_kept m c),
     (h c main_arg11).trans (arg11_kept m c),
     (h c main_arg12).trans (arg12_kept m c),
     (h c main_arg13).trans (arg13_kept m c)⟩)
    (run_seq scopedRefs_eq scopedSems_eq defs main (fun _ => ops) main_eq (fun _ => ops_sub) m ρ
      (fun _ => List.forall_iff_forall_mem.mp ops_fresh))

end Cert.ReferenceIdeal.Stages

end
-- ==== Proof.lean ====
/-
  The certificate of a one-step attention decoder: an embedding lookup, attention over the encoder outputs, a combined
  and rectified row, one gated recurrent step, an output projection onto 128000 logits and their log-softmax. The
  kernel's program does the projection in a first region (40 blocks of 3200 columns, each a matrix product of the new
  hidden row with a block of the weight table, plus the bias) and the log-softmax in a second region over the whole row;
  the reference does both on the host. Everything before the projection is the same host arithmetic in both programs,
  the lookup apart: the kernel's program checks the token against the table's bounds, which under the precondition
  0 ≤ token < 128000 always succeeds. So the three results are named as the reference's own stages: the attention
  weights, the new hidden row, and the specification's log-softmax of the specification's logits of that row.
  At the extended reals a matrix product against a zero accumulator is the host's product and a lane reduction is the
  host's reduction, so no finiteness of the inputs is used.
-/
import proofs.«424613_j17471926960376_3_alg».proof.Defs
import proofs.«424613_j17471926960376_3_alg».proof.Proof.Gen.Kernel
import proofs.«424613_j17471926960376_3_alg».proof.Proof.Gen.Kernel.Skeleton
import proofs.«424613_j17471926960376_3_alg».proof.Proof.Gen.Kernel.Launch
import proofs.«424613_j17471926960376_3_alg».proof.Proof.Gen.Kernel.Points
import proofs.«424613_j17471926960376_3_alg».proof.Proof.Gen.Kernel.Frame
import proofs.«424613_j17471926960376_3_alg».proof.Proof.Gen.KernelIdeal
import proofs.«424613_j17471926960376_3_alg».proof.Proof.Gen.KernelIdeal.Skeleton
import proofs.«424613_j17471926960376_3_alg».proof.Proof.Gen.KernelIdeal.Launch
import proofs.«424613_j17471926960376_3_alg».proof.Proof.Gen.KernelIdeal.Points
import proofs.«424613_j17471926960376_3_alg».proof.Proof.Gen.KernelIdeal.Frame
import proofs.«424613_j17471926960376_3_alg».proof.Proof.Gen.ReferenceIdeal
import proofs.«424613_j17471926960376_3_alg».proof.Proof.Gen.Pre_finite_inputs
import proofs.«424613_j17471926960376_3_alg».proof.Proof.KRun
import proofs.«424613_j17471926960376_3_alg».proof.Proof.KValue
import proofs.«424613_j17471926960376_3_alg».proof.Proof.HostK
import proofs.«424613_j17471926960376_3_alg».proof.Proof.PreRange
import proofs.«424613_j17471926960376_3_alg».proof.Proof.RefValue
import proofs.«424613_j17471926960376_3_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

/-! ## The kernel program's results as the reference's stages -/

section Results

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The log-probabilities as one function of the fourteen arguments: the specification's log-softmax of its logits of the
    reference's new-hidden-row stage, the weight table and the reference's bias-row stage. -/
def res0 (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S100x1024, .f32⟩ : BufTy).Contents (Elt Ideal)) (x3 : (⟨Cert.ReferenceIdeal.S128000x1024, .f32⟩ : BufTy).Contents (Elt Ideal)) (x4 : (⟨Cert.ReferenceIdeal.S100x2048, .f32⟩ : BufTy).Contents (Elt Ideal)) (x5 : (⟨Cert.ReferenceIdeal.S100, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 x9 : (⟨Cert.ReferenceIdeal.S3072x1024, .f32⟩ : BufTy).Contents (Elt Ideal)) (x10 x11 : (⟨Cert.ReferenceIdeal.S3072, .f32⟩ : BufTy).Contents (Elt Ideal)) (x12 : (⟨Cert.ReferenceIdeal.S128000x1024, .f32⟩ : BufTy).Contents (Elt Ideal)) (x13 : (⟨Cert.ReferenceIdeal.S128000, .f32⟩ : BufTy).Contents (Elt Ideal)) : Cert.Spec.SL.Idx → EReal :=
  Cert.Spec.logSoftmax (Cert.Spec.logits (Cert.ReferenceIdeal.Read.val_main_v67 (F := Ideal) x0 x1 x2 x3 x4 x5 x6 x7 x8 x9 x10 x11) x12 (Cert.ReferenceIdeal.Read.val_main_v70 (F := Ideal) x13))

/-- The reference's first result is that function of its arguments. -/
theorem ref_res0 (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S100x1024, .f32⟩ : BufTy).Contents (Elt Ideal)) (x3 : (⟨Cert.ReferenceIdeal.S128000x1024, .f32⟩ : BufTy).Contents (Elt Ideal)) (x4 : (⟨Cert.ReferenceIdeal.S100x2048, .f32⟩ : BufTy).Contents (Elt Ideal)) (x5 : (⟨Cert.ReferenceIdeal.S100, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 x9 : (⟨Cert.ReferenceIdeal.S3072x1024, .f32⟩ : BufTy).Contents (Elt Ideal)) (x10 x11 : (⟨Cert.ReferenceIdeal.S3072, .f32⟩ : BufTy).Contents (Elt Ideal)) (x12 : (⟨Cert.ReferenceIdeal.S128000x1024, .f32⟩ : BufTy).Contents (Elt Ideal)) (x13 : (⟨Cert.ReferenceIdeal.S128000, .f32⟩ : BufTy).Contents (Elt Ideal)) :
    Cert.ReferenceIdeal.Read.val_main_v72 (F := Ideal) x0 x1 x2 x3 x4 x5 x6 x7 x8 x9 x10 x11 x12 x13 = res0 x0 x1 x2 x3 x4 x5 x6 x7 x8 x9 x10 x11 x12 x13 := by
  rw [Cert.ReferenceIdeal.RefValue.ref_logSoftmax, Cert.ReferenceIdeal.RefValue.ref_logits]
  rfl

/-- Equal arguments, equal results (the three results' functions, each on the arguments it reads). -/
theorem res0_congr {x0 : (⟨Cert.ReferenceIdeal.S1, .i32⟩ : BufTy).Contents (Elt Ideal)} {x1 : (⟨Cert.ReferenceIdeal.S1x1x1024, .f32⟩ : BufTy).Contents (Elt Ideal)} {x2 : (⟨Cert.ReferenceIdeal.S100x1024, .f32⟩ : BufTy).Contents (Elt Ideal)} {x3 : (⟨Cert.ReferenceIdeal.S128000x1024, .f32⟩ : BufTy).Contents (Elt Ideal)} {x4 : (⟨Cert.ReferenceIdeal.S100x2048, .f32⟩ : BufTy).Contents (Elt Ideal)} {x5 : (⟨Cert.ReferenceIdeal.S100, .f32⟩ : BufTy).Contents (Elt Ideal)} {x6 : (⟨Cert.ReferenceIdeal.S1024x2048, .f32⟩ : BufTy).Contents (Elt Ideal)} {x7 : (⟨Cert.ReferenceIdeal.S1024, .f32⟩ : BufTy).Contents (Elt Ideal)} {x8 : (⟨Cert.ReferenceIdeal.S3072x1024, .f32⟩ : BufTy).Contents (Elt Ideal)} {x9 : (⟨Cert.ReferenceIdeal.S3072x1024, .f32⟩ : BufTy).Contents (Elt Ideal)} {x10 : (⟨Cert.ReferenceIdeal.S3072, .f32⟩ : BufTy).Contents (Elt Ideal)} {x11 : (⟨Cert.ReferenceIdeal.S3072, .f32⟩ : BufTy).Contents (Elt Ideal)} {x12 : (⟨Cert.ReferenceIdeal.S128000x1024, .f32⟩ : BufTy).Contents (Elt Ideal)} {x13 : (⟨Cert.ReferenceIdeal.S128000, .f32⟩ : BufTy).Contents (Elt Ideal)} {y0 : (⟨Cert.ReferenceIdeal.S1, .i32⟩ : BufTy).Contents (Elt Ideal)} {y1 : (⟨Cert.ReferenceIdeal.S1x1x1024, .f32⟩ : BufTy).Contents (Elt Ideal)} {y2 : (⟨Cert.ReferenceIdeal.S100x1024, .f32⟩ : BufTy).Contents (Elt Ideal)} {y3 : (⟨Cert.ReferenceIdeal.S128000x1024, .f32⟩ : BufTy).Contents (Elt Ideal)} {y4 : (⟨Cert.ReferenceIdeal.S100x2048, .f32⟩ : BufTy).Contents (Elt Ideal)} {y5 : (⟨Cert.ReferenceIdeal.S100, .f32⟩ : BufTy).Contents (Elt Ideal)} {y6 : (⟨Cert.ReferenceIdeal.S1024x2048, .f32⟩ : BufTy).Contents (Elt Ideal)} {y7 : (⟨Cert.ReferenceIdeal.S1024, .f32⟩ : BufTy).Contents (Elt Ideal)} {y8 : (⟨Cert.ReferenceIdeal.S3072x1024, .f32⟩ : BufTy).Contents (Elt Ideal)} {y9 : (⟨Cert.ReferenceIdeal.S3072x1024, .f32⟩ : BufTy).Contents (Elt Ideal)} {y10 : (⟨Cert.ReferenceIdeal.S3072, .f32⟩ : BufTy).Contents (Elt Ideal)} {y11 : (⟨Cert.ReferenceIdeal.S3072, .f32⟩ : BufTy).Contents (Elt Ideal)} {y12 : (⟨Cert.ReferenceIdeal.S128000x1024, .f32⟩ : BufTy).Contents (Elt Ideal)} {y13 : (⟨Cert.ReferenceIdeal.S128000, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    res0 x0 x1 x2 x3 x4 x5 x6 x7 x8 x9 x10 x11 x12 x13 = res0 y0 y1 y2 y3 y4 y5 y6 y7 y8 y9 y10 y11 y12 y13 := by
  subst_vars; rfl
theorem hidden_congr {x0 : (⟨Cert.ReferenceIdeal.S1, .i32⟩ : BufTy).Contents (Elt Ideal)} {x1 : (⟨Cert.ReferenceIdeal.S1x1x1024, .f32⟩ : BufTy).Contents (Elt Ideal)} {x2 : (⟨Cert.ReferenceIdeal.S100x1024, .f32⟩ : BufTy).Contents (Elt Ideal)} {x3 : (⟨Cert.ReferenceIdeal.S128000x1024, .f32⟩ : BufTy).Contents (Elt Ideal)} {x4 : (⟨Cert.ReferenceIdeal.S100x2048, .f32⟩ : BufTy).Contents (Elt Ideal)} {x5 : (⟨Cert.ReferenceIdeal.S100, .f32⟩ : BufTy).Contents (Elt Ideal)} {x6 : (⟨Cert.ReferenceIdeal.S1024x2048, .f32⟩ : BufTy).Contents (Elt Ideal)} {x7 : (⟨Cert.ReferenceIdeal.S1024, .f32⟩ : BufTy).Contents (Elt Ideal)} {x8 : (⟨Cert.ReferenceIdeal.S3072x1024, .f32⟩ : BufTy).Contents (Elt Ideal)} {x9 : (⟨Cert.ReferenceIdeal.S3072x1024, .f32⟩ : BufTy).Contents (Elt Ideal)} {x10 : (⟨Cert.ReferenceIdeal.S3072, .f32⟩ : BufTy).Contents (Elt Ideal)} {x11 : (⟨Cert.ReferenceIdeal.S3072, .f32⟩ : BufTy).Contents (Elt Ideal)} {y0 : (⟨Cert.ReferenceIdeal.S1, .i32⟩ : BufTy).Contents (Elt Ideal)} {y1 : (⟨Cert.ReferenceIdeal.S1x1x1024, .f32⟩ : BufTy).Contents (Elt Ideal)} {y2 : (⟨Cert.ReferenceIdeal.S100x1024, .f32⟩ : BufTy).Contents (Elt Ideal)} {y3 : (⟨Cert.ReferenceIdeal.S128000x1024, .f32⟩ : BufTy).Contents (Elt Ideal)} {y4 : (⟨Cert.ReferenceIdeal.S100x2048, .f32⟩ : BufTy).Contents (Elt Ideal)} {y5 : (⟨Cert.ReferenceIdeal.S100, .f32⟩ : BufTy).Contents (Elt Ideal)} {y6 : (⟨Cert.ReferenceIdeal.S1024x2048, .f32⟩ : BufTy).Contents (Elt Ideal)} {y7 : (⟨Cert.ReferenceIdeal.S1024, .f32⟩ : BufTy).Contents (Elt Ideal)} {y8 : (⟨Cert.ReferenceIdeal.S3072x1024, .f32⟩ : BufTy).Contents (Elt Ideal)} {y9 : (⟨Cert.ReferenceIdeal.S3072x1024, .f32⟩ : BufTy).Contents (Elt Ideal)} {y10 : (⟨Cert.ReferenceIdeal.S3072, .f32⟩ : BufTy).Contents (Elt Ideal)} {y11 : (⟨Cert.ReferenceIdeal.S3072, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Cert.ReferenceIdeal.Read.val_main_v73 (F := Ideal) x0 x1 x2 x3 x4 x5 x6 x7 x8 x9 x10 x11 = Cert.ReferenceIdeal.Read.val_main_v73 (F := Ideal) y0 y1 y2 y3 y4 y5 y6 y7 y8 y9 y10 y11 := by
  subst_vars; rfl
theorem attn_congr {x0 : (⟨Cert.ReferenceIdeal.S1, .i32⟩ : BufTy).Contents (Elt Ideal)} {x1 : (⟨Cert.ReferenceIdeal.S1x1x1024, .f32⟩ : BufTy).Contents (Elt Ideal)} {x3 : (⟨Cert.ReferenceIdeal.S128000x1024, .f32⟩ : BufTy).Contents (Elt Ideal)} {x4 : (⟨Cert.ReferenceIdeal.S100x2048, .f32⟩ : BufTy).Contents (Elt Ideal)} {x5 : (⟨Cert.ReferenceIdeal.S100, .f32⟩ : BufTy).Contents (Elt Ideal)} {y0 : (⟨Cert.ReferenceIdeal.S1, .i32⟩ : BufTy).Contents (Elt Ideal)} {y1 : (⟨Cert.ReferenceIdeal.S1x1x1024, .f32⟩ : BufTy).Contents (Elt Ideal)} {y3 : (⟨Cert.ReferenceIdeal.S128000x1024, .f32⟩ : BufTy).Contents (Elt Ideal)} {y4 : (⟨Cert.ReferenceIdeal.S100x2048, .f32⟩ : BufTy).Contents (Elt Ideal)} {y5 : (⟨Cert.ReferenceIdeal.S100, .f32⟩ : BufTy).Contents (Elt Ideal)} (h0 : x0 = y0) (h1 : x1 = y1) (h3 : x3 = y3) (h4 : x4 = y4) (h5 : x5 = y5) :
    Cert.ReferenceIdeal.Read.val_main_v24 (F := Ideal) x0 x1 x3 x4 x5 = Cert.ReferenceIdeal.Read.val_main_v24 (F := Ideal) y0 y1 y3 y4 y5 := by
  subst_vars; rfl

/-- The log-probabilities: the log-softmax of the logits of the new hidden row, the weight table and the bias row. -/
theorem logprobs_eq (hr : Cert.KernelIdeal.Take.InRange (m ((c.tc : Thread Cert.KernelIdeal.nD Cert.KernelIdeal.τ).loc Cert.KernelIdeal.main_arg0))) :
    Cert.KernelIdeal.Gen.W7 m ρ c (Proc.devRef .tc Cert.KernelIdeal.main_v64) = res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  unfold res0
  rw [Cert.KernelIdeal.KValue.logprobs, Cert.KernelIdeal.HostValue.new_hidden m ρ c hr, Cert.KernelIdeal.HostValue.W4_arg12, Cert.KernelIdeal.HostValue.bias_row]

/-- The new hidden state: the new hidden row with a leading unit axis. -/
theorem hidden_eq (hr : Cert.KernelIdeal.Take.InRange (m ((c.tc : Thread Cert.KernelIdeal.nD Cert.KernelIdeal.τ).loc Cert.KernelIdeal.main_arg0))) :
    Cert.KernelIdeal.Gen.W7 m ρ c (Proc.devRef .tc Cert.KernelIdeal.main_v65)
      = Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [Cert.KernelIdeal.KValue.hidden_out, Cert.KernelIdeal.HostValue.new_hidden m ρ c hr]
  rfl

/-- The attention weights. -/
theorem attn_eq (hr : Cert.KernelIdeal.Take.InRange (m ((c.tc : Thread Cert.KernelIdeal.nD Cert.KernelIdeal.τ).loc Cert.KernelIdeal.main_arg0))) :
    Cert.KernelIdeal.Gen.W7 m ρ c (Proc.devRef .tc Cert.KernelIdeal.main_v18)
      = Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  (Cert.KernelIdeal.KValue.attn_kept m ρ c).trans (Cert.KernelIdeal.HostValue.attn_at_entry m ρ c hr)

end Results

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Stages.run (F := Ideal) m ρ)

/-- Under the precondition the token is in the table's range on every device. -/
theorem token_in_range (m : (ℓ : Loc Cert.KernelIdeal.nD Cert.KernelIdeal.τ Cert.KernelIdeal.sig) → Buf (Elt Ideal) ℓ) (h : Cert.Pre_KernelIdeal m)
    (c : Dev Cert.KernelIdeal.nD) : Cert.KernelIdeal.Take.InRange (m ((c.tc : Thread Cert.KernelIdeal.nD Cert.KernelIdeal.τ).loc Cert.KernelIdeal.main_arg0)) :=
  fun i => Cert.Pre_finite_inputs.TokenRange.token_range (F := Ideal) _ _ _ _ _ _ _ _ _ _ _ _ _ _ (h c) i

set_option maxHeartbeats 4000000 in
/-- Both programs end with the three results at the reference's stages of the (agreeing) arguments. -/
theorem algebraic : Cert.algebraic_KernelIdeal_ReferenceIdeal := by
  intro m ρ m' ρ' hpre hagree
  refine ⟨fun c => res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Results.run_results (F := Ideal) m ρ)
    have hr := token_in_range m hpre c
    exact ⟨(h c).1.trans (logprobs_eq m ρ c hr), (h c).2.1.trans (hidden_eq m ρ c hr),
      (h c).2.2.1.trans (attn_eq m ρ c hr), (h c).2.2.2⟩
  · refine (θ_run Cert.ReferenceIdeal.defs _ _).mono (fun r h c => ?_) (Cert.ReferenceIdeal.Stages.run (F := Ideal) m' ρ')
    obtain ⟨h0, h1, h2, hargs⟩ := h c
    obtain ⟨g0, g1, g2, g3, g4, g5, g6, g7, g8, g9, g10, g11, g12, g13⟩ := hagree c
    exact ⟨h0.trans ((ref_res0 _ _ _ _ _ _ _ _ _ _ _ _ _ _).trans (res0_congr g0 g1 g2 g3 g4 g5 g6 g7 g8 g9 g10 g11 g12 g13)),
      h1.trans (hidden_congr g0 g1 g2 g3 g4 g5 g6 g7 g8 g9 g10 g11),
      h2.trans (attn_congr g0 g1 g3 g4 g5), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
